-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S2x128 .f32) (main_arg7 : FVec F S128x128 .f32) (main_arg8 : FVec F S128 .f32) (main_arg9 : FVec F S128x10 .f32) (main_arg10 : FVec F S10 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S2x128x128 .f32) (main_arg6 : FVec F S2x128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S2x1x128 : Shape := ⟨3, ![2, 1, 128]⟩
abbrev S10000x128 : Shape := ⟨2, ![10000, 128]⟩
abbrev S1700000x128 : Shape := ⟨2, ![1700000, 128]⟩
abbrev S1x128x128 : Shape := ⟨3, ![1, 128, 128]⟩
abbrev S1x1x128 : Shape := ⟨3, ![1, 1, 128]⟩
abbrev S100000x1 : Shape := ⟨2, ![100000, 1]⟩
abbrev S1x10 : Shape := ⟨2, ![1, 10]⟩
abbrev S128x1 : Shape := ⟨2, ![128, 1]⟩

abbrev nBuf : Space → Nat
  | .hbm => 122
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S2x128x128, .f32⟩
  | .hbm, ⟨6, _⟩ => ⟨S2x128, .f32⟩
  | .hbm, ⟨7, _⟩ => ⟨S128x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S1700000x1, .f32⟩
  | .hbm, ⟨52, _⟩ => ⟨S1x128, .f32⟩
  | .hbm, ⟨53, _⟩ => ⟨S2x1x128, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x128, .f32⟩
  | .hbm, ⟨65, _⟩ => ⟨S1700000x128, .f32⟩
  | .hbm, ⟨66, _⟩ => ⟨S_, .f32⟩
  | .hbm, ⟨67, _⟩ => ⟨S100000x128, .f32⟩
  | .hbm, ⟨68, _⟩ => ⟨S1700000x1, .i32⟩
  | .hbm, ⟨69, _⟩ => ⟨S100000x128, .f32⟩
  | .hbm, ⟨70, _⟩ => ⟨S1x128x128, .f32⟩
  | .hbm, ⟨71, _⟩ => ⟨S128x128, .f32⟩
  | .hbm, ⟨72, _⟩ => ⟨S100000x128, .f32⟩
  | .hbm, ⟨73, _⟩ => ⟨S1x1x128, .f32⟩
  | .hbm, ⟨74, _⟩ => ⟨S1x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128x128, .f32⟩
  | .hbm, ⟨91, _⟩ => ⟨S128x128, .f32⟩
  | .hbm, ⟨92, _⟩ => ⟨S100000x128, .f32⟩
  | .hbm, ⟨93, _⟩ => ⟨S1x1x128, .f32⟩
  | .hbm, ⟨94, _⟩ => ⟨S1x128, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .f32⟩
  | .hbm, ⟨104, _⟩ => ⟨S1700000x128, .f32⟩
  | .hbm, ⟨105, _⟩ => ⟨S1700000x128, .f32⟩
  | .hbm, ⟨106, _⟩ => ⟨S_, .f32⟩
  | .hbm, ⟨107, _⟩ => ⟨S100000x128, .f32⟩
  | .hbm, ⟨108, _⟩ => ⟨S1700000x1, .i32⟩
  | .hbm, ⟨109, _⟩ => ⟨S100000x128, .f32⟩
  | .hbm, ⟨110, _⟩ => ⟨S100000x1, .i32⟩
  | .hbm, ⟨111, _⟩ => ⟨S128, .i32⟩
  | .hbm, ⟨112, _⟩ => ⟨S1x128, .i32⟩
  | .hbm, ⟨113, _⟩ => ⟨S100000x128, .i32⟩
  | .hbm, ⟨114, _⟩ => ⟨S100000x128, .i32⟩
  | .hbm, ⟨115, _⟩ => ⟨S100000x128, .i1⟩
  | .hbm, ⟨116, _⟩ => ⟨S100000x128, .bf16⟩
  | .hbm, ⟨117, _⟩ => ⟨S128x128, .f32⟩
  | .hbm, ⟨118, _⟩ => ⟨S1x128, .f32⟩
  | .hbm, ⟨119, _⟩ => ⟨S1x128, .f32⟩
  | .hbm, ⟨120, _⟩ => ⟨S1x10, .f32⟩
  | .hbm, ⟨121, _⟩ => ⟨S128x10, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .bf16⟩
  | .local _ .vmem, ⟨21, _⟩ => ⟨S10000x128, .bf16⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S128x10, .f32⟩
  | .local _ .vmem, ⟨29, _⟩ => ⟨S1x10, .f32⟩
  | .local _ .vmem, ⟨30, _⟩ => ⟨S128x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87_0 : Ref sig .tc := ⟨.hbm, 117, rfl⟩
abbrev main_v87_1 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg4_0 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg4_0 : Ref sig .tc := ⟨.vmem, 28, rfl⟩
abbrev cc4_stg5_0 : Ref sig .tc := ⟨.vmem, 29, rfl⟩
abbrev cc4_stg6_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem4_0 : DmaSem sig := 23
abbrev cc4_sem0_0 : DmaSem sig := 24
abbrev cc4_sem1_0 : DmaSem sig := 25
abbrev cc4_sem2_0 : DmaSem sig := 26
abbrev cc4_sem3_0 : DmaSem sig := 27
abbrev cc4_sem4_0 : DmaSem sig := 28
abbrev cc4_sem5_0 : DmaSem sig := 29
abbrev cc4_sem6_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x10 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x10 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  shapeCasts_S2x128_S2x1x128 : S2x128.ShapeCasts S2x1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S128x128_S128x128 : S128x128.ShapeCasts S128x128
  slices_S2x1x128_S1x1x128_0_0_0 : S2x1x128.Slices ![0, 0, 0] S1x1x128
  shapeCasts_S1x1x128_S1x128 : S1x1x128.ShapeCasts S1x128
  slices_S2x128x128_S1x128x128_1_0_0 : S2x128x128.Slices ![1, 0, 0] S1x128x128
  slices_S2x1x128_S1x1x128_1_0_0 : S2x1x128.Slices ![1, 0, 0] S1x1x128
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  reduces_S10000x128_S128 : S10000x128.Reduces [0] S128
  shapeCasts_S10_S1x10 : S10.ShapeCasts S1x10
  transposes_S1x128_p1_0_S128x1 : S1x128.Transposes [1, 0] S128x1
  broadcasts_S128x1_S128x128 : S128x1.Broadcasts S128x128
  broadcasts_S1x128_S128x128 : S1x128.Broadcasts S128x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  shapeCasts_S128_S128x1 : S128.ShapeCasts S128x1
  broadcasts_S128x1_S128x10 : S128x1.Broadcasts S128x10
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S10000x128_S128x128_0_0_1_1_n_n_wf : DotDims.WF S10000x128 S10000x128 S128x128 [0] [0] [1] [1] [] []
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S100000x128.size a
  hwx2_3 : ∀ i : grid2.Coords, EltTy.bits .f32 = 32 ∨ (Rect.block (s := S100000x128) S10000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .bf16 = 32 ∨ (Rect.block (s := S100000x128) S10000x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x128.size a ≤ S128x128.size a
  hwx4_0 : ∀ i : grid4.Coords, EltTy.bits .f32 = 32 ∨ (Rect.block (s := S128x128) S128x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x10.size a ≤ S128x10.size a
  hwx4_4 : ∀ i : grid4.Coords, EltTy.bits .f32 = 32 ∨ (Rect.block (s := S128x10) S128x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x10.size a ≤ S1x10.size a
  hwx4_5 : ∀ i : grid4.Coords, EltTy.bits .f32 = 32 ∨ (Rect.block (s := S1x10) S1x10.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x10.size a ≤ S128x10.size a
  hwx4_6 : ∀ i : grid4.Coords, EltTy.bits .f32 = 32 ∨ (Rect.block (s := S128x10) S128x10.size (cc4_transform_6 i) (hinb4_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v79) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S10000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v87_0) S128x128.size cc3_transform_3 reads3_3 true true 1 stage3_3 sem3_3
    hrank3 hreads3_3 hinb3_3 nbuf3_3 (Memref.isWhole_whole _) hwx3_3 hstage3_3

abbrev win3_4 : Pipeline.Window sig grid3 :=
  Pipeline.Window.ofSpec (Memref.whole main_v87_1) S1x128.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v87_0) S128x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v87_1) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg9) S128x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v89) S1x10.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v90) S128x10.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S1x128x128 : Shape := ⟨3, ![1, 128, 128]⟩
abbrev S100000x1 : Shape := ⟨2, ![100000, 1]⟩
abbrev S128x1 : Shape := ⟨2, ![128, 1]⟩
abbrev S1x10 : Shape := ⟨2, ![1, 10]⟩

abbrev nBuf : Space → Nat
  | .hbm => 170
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S2x128x128, .f32⟩
  | 6 => ⟨S2x128, .f32⟩
  | 7 => ⟨S128x128, .f32⟩
  | 8 => ⟨S128, .f32⟩
  | 9 => ⟨S128x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S1x128x128, .f32⟩
  | 75 => ⟨S128x128, .f32⟩
  | 76 => ⟨S1x128, .f32⟩
  | 77 => ⟨S128, .f32⟩
  | 78 => ⟨S100000x128, .f32⟩
  | 79 => ⟨S1700000x1, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x128, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .f32⟩
  | 101 => ⟨S1x128x128, .f32⟩
  | 102 => ⟨S128x128, .f32⟩
  | 103 => ⟨S1x128, .f32⟩
  | 104 => ⟨S128, .f32⟩
  | 105 => ⟨S100000x128, .f32⟩
  | 106 => ⟨S1700000x1, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S128x128, .f32⟩
  | 2 => ⟨S100000x1, .i32⟩
  | 3 => ⟨S128x128, .f32⟩
  | 4 => ⟨S_, .f32⟩
  | 5 => ⟨S100000, .f32⟩
  | 6 => ⟨S_, .f32⟩
  | 7 => ⟨S128, .f32⟩
  | 8 => ⟨S100000x1, .i32⟩
  | 9 => ⟨S128, .f32⟩
  | 10 => ⟨S_, .f32⟩
  | 11 => ⟨S128, .f32⟩
  | 12 => ⟨S128, .f32⟩
  | 13 => ⟨S128x1, .f32⟩
  | 14 => ⟨S128x128, .f32⟩
  | 15 => ⟨S128x128, .f32⟩
  | 16 => ⟨S128x128, .f32⟩
  | 17 => ⟨S1x128, .f32⟩
  | 18 => ⟨S128x128, .f32⟩
  | 19 => ⟨S128x128, .f32⟩
  | 20 => ⟨S_, .f32⟩
  | 21 => ⟨S128x128, .f32⟩
  | 22 => ⟨S128x128, .f32⟩
  | 23 => ⟨S128x10, .f32⟩
  | 24 => ⟨S1x10, .f32⟩
  | 25 => ⟨S128x10, .f32⟩
  | 26 => ⟨S128x10, .f32⟩
  | 27 => ⟨S_, .f32⟩
  | 28 => ⟨S128, .f32⟩
  | 29 => ⟨S_, .f32⟩
  | 30 => ⟨S128, .f32⟩
  | 31 => ⟨S128, .f32⟩
  | 32 => ⟨S128x1, .f32⟩
  | 33 => ⟨S128x10, .f32⟩
  | 34 => ⟨S128x10, .f32⟩
  | 35 => ⟨S128x10, .f32⟩
  | 36 => ⟨S_, .f32⟩
  | 37 => ⟨S128, .f32⟩
  | 38 => ⟨S128x1, .f32⟩
  | 39 => ⟨S128x1, .f32⟩
  | 40 => ⟨S128x10, .f32⟩
  | 41 => ⟨S128x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call2_cst : Ref sig .tc := ⟨.hbm, 98, rfl⟩
abbrev main_call2_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_12 : Ref sig .tc := ⟨.hbm, 107, rfl⟩
abbrev main_v76 : Ref sig .tc := ⟨.hbm, 108, rfl⟩
abbrev main_v77 : Ref sig .tc := ⟨.hbm, 109, rfl⟩
abbrev main_c_13 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_14 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_cst_15 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_16 : Ref sig .tc := ⟨.hbm, 132, rfl⟩
abbrev main_v95 : Ref sig .tc := ⟨.hbm, 133, rfl⟩
abbrev main_cst_17 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_18 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_call4_cst : Ref sig .tc := ⟨.hbm, 148, rfl⟩
abbrev main_call4_v0 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_call5_cst : Ref sig .tc := ⟨.hbm, 155, rfl⟩
abbrev main_call5_v0 : Ref sig .tc := ⟨.hbm, 156, rfl⟩
abbrev main_call5_cst_0 : Ref sig .tc := ⟨.hbm, 157, rfl⟩
abbrev main_call5_v1 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_v6 : Ref sig .tc := ⟨.hbm, 163, rfl⟩
abbrev main_call5_cst_1 : Ref sig .tc := ⟨.hbm, 164, rfl⟩
abbrev main_call5_v7 : Ref sig .tc := ⟨.hbm, 165, rfl⟩
abbrev main_call5_v8 : Ref sig .tc := ⟨.hbm, 166, rfl⟩
abbrev main_call5_v9 : Ref sig .tc := ⟨.hbm, 167, rfl⟩
abbrev main_call5_v10 : Ref sig .tc := ⟨.hbm, 168, rfl⟩
abbrev main_v113 : Ref sig .tc := ⟨.hbm, 169, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.Spec.lean ====
/-
  The reference's stages as functions of the arrays they read, so that a stage can be applied to ANY array of the right
  shape. A graph-convolution layer is: add the bias row to every node's aggregated features, clamp at zero, multiply by
  the layer's weights (`layer`); the aggregation itself scatters, to each edge's target, the edge's coefficient times the
  source node's projected features (`msg`). The pooling adds every node's features into its graph's row (`pool`) and
  counts each graph's nodes (`cnt`); the classifier divides each graph's row by its count clamped below at one, applies two
  dense layers with a clamp between them, and normalises each row's ten scores by the logarithm of the sum of their
  exponentials, after subtracting the row's largest score (`head`).
-/
import proofs.«427432_j47828755808670_1_alg».proof.Proof.Gen.ReferenceIdeal

noncomputable section

namespace Cert.Spec

open Cert.ReferenceIdeal Cert.ReferenceIdeal.Gen Idealize.ShloMosaic

variable {F : FTy → Type} [FloatOps F]

/-- The node-feature arrays, the square weight matrices, and the vectors of 128 entries. -/
abbrev Nodes (F : FTy → Type) := (⟨S100000x128, .f32⟩ : BufTy).Contents (Elt F)
abbrev Mat (F : FTy → Type) := (⟨S128x128, .f32⟩ : BufTy).Contents (Elt F)
abbrev Vec128 (F : FTy → Type) := (⟨S128, .f32⟩ : BufTy).Contents (Elt F)
abbrev Edges := (⟨S1700000, .i32⟩ : BufTy).Contents (Elt F)

/-- A bias vector laid along every node's row. -/
def biasRows (b : Vec128 F) : Nodes F :=
  broadcastInDim S100000x128 ![0, 1] bcast_S1x128_S100000x128_0_1 (broadcastInDim S1x128 ![1] bcast_S128_S1x128_1 b)

/-- The clamp at zero of the aggregated features plus the bias. -/
def act (agg : Nodes F) (b : Vec128 F) : Nodes F :=
  maximumf (addf agg (biasRows b)) (broadcastInDim S100000x128 ![] bcast_S_S100000x128 (constant S_ .f32 0x00000000#32))

/-- Every node's features times a weight matrix. -/
def proj (h : Nodes F) (w : Mat F) : Nodes F :=
  Host.dotGeneral dot_S100000x128_S128x128_S100000x128_1_0_0_1_n_n none h w

/-- One layer after its aggregation: bias, clamp, weights. -/
def layer (agg : Nodes F) (b : Vec128 F) (w : Mat F) : Nodes F := proj (act agg b) w

/-- The aggregation: each edge gathers its source node's row (a negative source word wraps once), scales it by the edge's
    coefficient, and adds it into its target node's row. -/
def msg (src dst : (⟨S1700000, .i32⟩ : BufTy).Contents (Elt F)) (nrm : (⟨S1700000x1, .f32⟩ : BufTy).Contents (Elt F))
    (p : Nodes F) : Nodes F :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (broadcastInDim S1700000x128 ![0, 1] bcast_S1700000x1_S1700000x128_0_1 nrm)
      (Host.gather gather_S100000x128_S1700000x1_S1700000x128_1_0_n_n_0_1_1128 p
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src))))

/-- Weight matrix number 0 or 1 of the stacked pair, and bias vector number 0 or 1 of the stacked pair. -/
def w0 (x5 : (⟨S2x128x128, .f32⟩ : BufTy).Contents (Elt F)) : Mat F :=
  shapeCast _ (extractStridedSlice S1x128x128 ![0, 0, 0] x5 slices_S2x128x128_S1x128x128_0_0_0) shapeCasts_S1x128x128_S128x128
def w1 (x5 : (⟨S2x128x128, .f32⟩ : BufTy).Contents (Elt F)) : Mat F :=
  shapeCast _ (extractStridedSlice S1x128x128 ![1, 0, 0] x5 slices_S2x128x128_S1x128x128_1_0_0) shapeCasts_S1x128x128_S128x128
def b0 (x6 : (⟨S2x128, .f32⟩ : BufTy).Contents (Elt F)) : Vec128 F :=
  shapeCast _ (extractStridedSlice S1x128 ![0, 0] x6 slices_S2x128_S1x128_0_0) shapeCasts_S1x128_S128
def b1 (x6 : (⟨S2x128, .f32⟩ : BufTy).Contents (Elt F)) : Vec128 F :=
  shapeCast _ (extractStridedSlice S1x128 ![1, 0] x6 slices_S2x128_S1x128_1_0) shapeCasts_S1x128_S128

/-- Every node's row added into the row of the graph its word names (a word naming no graph is dropped). -/
def pool (x2 : (⟨S100000, .i32⟩ : BufTy).Contents (Elt F)) (h : Nodes F) : Mat F :=
  Host.scatterAdd scatter_S128x128_S100000x1_S100000x128_1_0_0_1
    (broadcastInDim S128x128 ![] bcast_S_S128x128 (constant S_ .f32 0x00000000#32))
    (broadcastInDim S100000x1 ![0] bcast_S100000_S100000x1_0 x2) h

/-- The number of nodes of each graph. -/
def cnt (x2 : (⟨S100000, .i32⟩ : BufTy).Contents (Elt F)) : Vec128 F :=
  Host.scatterAdd scatter_S128_S100000x1_S100000_n_0_0_1
    (broadcastInDim S128 ![] bcast_S_S128 (constant S_ .f32 0x00000000#32))
    (broadcastInDim S100000x1 ![0] bcast_S100000_S100000x1_0 x2)
    (broadcastInDim S100000 ![] bcast_S_S100000 (constant S_ .f32 0x3F800000#32))

/-- The mean of each graph's rows (the count clamped below at one). -/
def mean (P : Mat F) (C : Vec128 F) : Mat F :=
  Host.divf P (broadcastInDim S128x128 ![0, 1] bcast_S128x1_S128x128_0_1 (broadcastInDim S128x1 ![0] bcast_S128_S128x1_0
    (maximumf C (broadcastInDim S128 ![] bcast_S_S128 (constant S_ .f32 0x3F800000#32)))))

/-- The first dense layer with its clamp. -/
def hidden (M : Mat F) (x7 : Mat F) (x8 : Vec128 F) : Mat F :=
  maximumf (addf (Host.dotGeneral dot_S128x128_S128x128_S128x128_1_0_0_1_n_n none M x7)
      (broadcastInDim S128x128 ![0, 1] bcast_S1x128_S128x128_0_1 (broadcastInDim S1x128 ![1] bcast_S128_S1x128_1 x8)))
    (broadcastInDim S128x128 ![] bcast_S_S128x128 (constant S_ .f32 0x00000000#32))

/-- The ten scores of each graph. -/
def logits (H : Mat F) (x9 : (⟨S128x10, .f32⟩ : BufTy).Contents (Elt F)) (x10 : (⟨S10, .f32⟩ : BufTy).Contents (Elt F)) :
    (⟨S128x10, .f32⟩ : BufTy).Contents (Elt F) :=
  addf (Host.dotGeneral dot_S128x128_S128x10_S128x10_1_0_0_1_n_n none H x9)
    (broadcastInDim S128x10 ![0, 1] bcast_S1x10_S128x10_0_1 (broadcastInDim S1x10 ![1] bcast_S10_S1x10_1 x10))

/-- Each row's scores minus the row's largest. -/
def shifted (L : (⟨S128x10, .f32⟩ : BufTy).Contents (Elt F)) : (⟨S128x10, .f32⟩ : BufTy).Contents (Elt F) :=
  subf L (broadcastInDim S128x10 ![0, 1] bcast_S128x1_S128x10_0_1 (broadcastInDim S128x1 ![0] bcast_S128_S128x1_0
    (maximumf (broadcastInDim S128 ![] bcast_S_S128 (constant S_ .f32 0xFF800000#32))
      (Host.reduce FloatOps.maximumf L (constant S_ .f32 0xFF800000#32) reducesTo_S128x10_S128_d1 h_S_))))

/-- The shifted scores minus the logarithm of the sum of their exponentials. -/
def logSoftmax (L : (⟨S128x10, .f32⟩ : BufTy).Contents (Elt F)) : (⟨S128x10, .f32⟩ : BufTy).Contents (Elt F) :=
  subf (shifted L) (broadcastInDim S128x10 ![0, 1] bcast_S128x1_S128x10_0_1 (Host.log (broadcastInDim S128x1 ![0] bcast_S128_S128x1_0
    (Host.reduceAdd (Host.exp (shifted L)) (constant S_ .f32 0x00000000#32) reducesTo_S128x10_S128_d1 h_S_))))

/-- The classifier over the pooled sums and the counts. -/
def head (P : Mat F) (C : Vec128 F) (x7 : Mat F) (x8 : Vec128 F) (x9 : (⟨S128x10, .f32⟩ : BufTy).Contents (Elt F))
    (x10 : (⟨S10, .f32⟩ : BufTy).Contents (Elt F)) : (⟨S128x10, .f32⟩ : BufTy).Contents (Elt F) :=
  logSoftmax (logits (hidden (mean P C) x7 x8) x9 x10)

end Cert.Spec

end
-- ==== Proof.RefSide.lean ====
/-
  The reference's result as the stages of Proof/Spec.lean composed: three graph-convolution layers (project, aggregate
  along the edges, add the bias and clamp), the pooling of every node's features into its graph's row with the count of
  each graph's nodes, and the classifier. Every equation here holds by unfolding the definitions: the reference's
  operations, one at a time, are these stages' operations.
-/
import proofs.«427432_j47828755808670_1_alg».proof.Proof.RefRead
import proofs.«427432_j47828755808670_1_alg».proof.Proof.Spec

set_option maxRecDepth 16384

noncomputable section

namespace Cert.RefSide

open Cert.ReferenceIdeal Cert.ReferenceIdeal.Gen Cert.ReferenceIdeal.ReadP Cert.Spec Idealize.ShloMosaic

variable (x0 : (⟨S100000x128, .f32⟩ : BufTy).Contents (Elt Ideal)) (x1 : (⟨S2x1600000, .i32⟩ : BufTy).Contents (Elt Ideal))
  (x2 : (⟨S100000, .i32⟩ : BufTy).Contents (Elt Ideal)) (x3 : (⟨S128x128, .f32⟩ : BufTy).Contents (Elt Ideal))
  (x4 : (⟨S128, .f32⟩ : BufTy).Contents (Elt Ideal)) (x5 : (⟨S2x128x128, .f32⟩ : BufTy).Contents (Elt Ideal))
  (x6 : (⟨S2x128, .f32⟩ : BufTy).Contents (Elt Ideal)) (x7 : (⟨S128x128, .f32⟩ : BufTy).Contents (Elt Ideal))
  (x8 : (⟨S128, .f32⟩ : BufTy).Contents (Elt Ideal)) (x9 : (⟨S128x10, .f32⟩ : BufTy).Contents (Elt Ideal))
  (x10 : (⟨S10, .f32⟩ : BufTy).Contents (Elt Ideal))

/-- The first projection. -/
theorem v30_eq : val_main_v30 (F := Ideal) x0 x3 = proj x0 x3 := rfl

/-- The first aggregation. -/
theorem v43_eq : val_main_v43 (F := Ideal) x0 x1 x3
    = msg (val_main_v3 (F := Ideal) x1) (val_main_v6 (F := Ideal) x1) (val_main_v31 (F := Ideal) x1) (val_main_v30 (F := Ideal) x0 x3) := rfl

/-- The second projection: bias, clamp, the first weight matrix of the pair. -/
theorem v52_eq : val_main_v52 (F := Ideal) x0 x1 x3 x4 x5 = layer (val_main_v43 (F := Ideal) x0 x1 x3) x4 (w0 x5) := rfl

/-- The second aggregation. -/
theorem v65_eq : val_main_v65 (F := Ideal) x0 x1 x3 x4 x5
    = msg (val_main_v3 (F := Ideal) x1) (val_main_v6 (F := Ideal) x1) (val_main_v31 (F := Ideal) x1) (val_main_v52 (F := Ideal) x0 x1 x3 x4 x5) := rfl

/-- The third projection. -/
theorem v74_eq : val_main_v74 (F := Ideal) x0 x1 x3 x4 x5 x6 = layer (val_main_v65 (F := Ideal) x0 x1 x3 x4 x5) (b0 x6) (w1 x5) := rfl

/-- The third aggregation. -/
theorem v87_eq : val_main_v87 (F := Ideal) x0 x1 x3 x4 x5 x6
    = msg (val_main_v3 (F := Ideal) x1) (val_main_v6 (F := Ideal) x1) (val_main_v31 (F := Ideal) x1) (val_main_v74 (F := Ideal) x0 x1 x3 x4 x5 x6) := rfl

/-- The pooled sums and the counts. -/
theorem v94_eq : val_main_v94 (F := Ideal) x0 x1 x2 x3 x4 x5 x6 = pool x2 (act (val_main_v87 (F := Ideal) x0 x1 x3 x4 x5 x6) (b1 x6)) := rfl
theorem v98_eq : val_main_v98 (F := Ideal) x2 = cnt x2 := rfl

/-- The classifier. -/
theorem v113_eq : val_main_v113 (F := Ideal) x0 x1 x2 x3 x4 x5 x6 x7 x8 x9 x10
    = head (val_main_v94 (F := Ideal) x0 x1 x2 x3 x4 x5 x6) (val_main_v98 (F := Ideal) x2) x7 x8 x9 x10 := rfl

end Cert.RefSide

end
-- ==== Proof.KHost.lean ====
import proofs.«427432_j47828755808670_1_alg».proof.Proof.Gen.KernelIdeal.Launch
import proofs.«427432_j47828755808670_1_alg».proof.Proof.Spec
import proofs.«427432_j47828755808670_1_alg».proof.Proof.RefRead
import Idealize.ShloMosaic.Lib.StableHlo.Run
import Idealize.ShloMosaic.Lib.Pipeline.Value
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.ShloMosaic.ValueIdx Idealize.ShloMosaic.StableHlo Idealize.SL.Sem

-- a TensorCore's buffer contents when a stretch of host operations starts
variable (W : Valuation τ sig (Elt Ideal))

/-! ## The stretch before the first region: the edge lists with the self loops, the edge coefficients, the bias rows -/

/-- The contents after the three lists of host operations that run before the first region. -/
abbrev pre : Valuation τ sig (Elt Ideal) :=
  StableHlo.after hostOps0_2 (StableHlo.after hostOps0_1 (StableHlo.after (hostOps0 (F := Ideal)) W))

/-! ### The three lists one at a time, each from any contents -/

open Cert.ReferenceIdeal.ReadP in
/-- After the first list the source words are the reference's. -/
theorem s0_v3 : StableHlo.after (hostOps0 (F := Ideal)) W (Proc.devRef .tc main_v3)
    = val_main_v3 (F := Ideal) (W (Proc.devRef .tc main_arg1)) := by
  after_results
  unfold val_main_v3 val_main_v2 val_main_v1 val_main_v0
  rfl

open Cert.ReferenceIdeal.ReadP in
/-- After the first list the target words are the reference's. -/
theorem s0_v6 : StableHlo.after (hostOps0 (F := Ideal)) W (Proc.devRef .tc main_v6)
    = val_main_v6 (F := Ideal) (W (Proc.devRef .tc main_arg1)) := by
  after_results
  unfold val_main_v6 val_main_v5 val_main_v4 val_main_v0
  rfl

open Cert.ReferenceIdeal.ReadP in
/-- After the first list: which nodes have a positive degree (the degree counts, at each node, the edges that end there). -/
theorem s0_v12 : StableHlo.after (hostOps0 (F := Ideal)) W (Proc.devRef .tc main_v12)
    = val_main_v12 (F := Ideal) (W (Proc.devRef .tc main_arg1)) := by
  after_results
  unfold val_main_v12 val_main_v11 val_main_cst_1 val_main_v10 val_main_v8 val_main_v9 val_main_v7 val_main_cst val_main_cst_0
    val_main_v6 val_main_v5 val_main_v4 val_main_v0
  rfl

open Cert.ReferenceIdeal.ReadP in
/-- After the first list: the reciprocal square root of every node's degree. -/
theorem s0_v13 : StableHlo.after (hostOps0 (F := Ideal)) W (Proc.devRef .tc main_v13)
    = val_main_v13 (F := Ideal) (W (Proc.devRef .tc main_arg1)) := by
  after_results
  unfold val_main_v13 val_main_v10 val_main_v8 val_main_v9 val_main_v7 val_main_cst val_main_cst_0
    val_main_v6 val_main_v5 val_main_v4 val_main_v0
  rfl

open Cert.ReferenceIdeal.ReadP in
/-- After the first list: the zero that replaces the reciprocal square root where the degree is not positive. -/
theorem s0_cst_2 : StableHlo.after (hostOps0 (F := Ideal)) W (Proc.devRef .tc main_cst_2)
    = val_main_cst_2 (F := Ideal) := by
  after_results
  rfl

/-- The second list leaves the source words, the target words alone. -/
theorem s1_v3 : StableHlo.after (hostOps0_1 (F := Ideal)) W (Proc.devRef .tc main_v3) = W (Proc.devRef .tc main_v3) := by
  after_results
theorem s1_v6 : StableHlo.after (hostOps0_1 (F := Ideal)) W (Proc.devRef .tc main_v6) = W (Proc.devRef .tc main_v6) := by
  after_results

/-- The second list chooses, node by node, between the reciprocal square root and the zero. -/
theorem s1_v14 : StableHlo.after (hostOps0_1 (F := Ideal)) W (Proc.devRef .tc main_v14)
    = select (W (Proc.devRef .tc main_v12)) (W (Proc.devRef .tc main_v13))
        (broadcastInDim S100000 ![] bcast_S_S100000 (W (Proc.devRef .tc main_cst_2))) := by
  after_results
  rfl

open Cert.ReferenceIdeal.ReadP in
/-- After the first two lists the per-node factor is the reference's. -/
theorem s01_v14 : StableHlo.after hostOps0_1 (StableHlo.after (hostOps0 (F := Ideal)) W) (Proc.devRef .tc main_v14)
    = val_main_v14 (F := Ideal) (W (Proc.devRef .tc main_arg1)) := by
  rw [s1_v14, s0_v12, s0_v13, s0_cst_2]
  unfold val_main_v14 val_main_call0_v1 val_main_call0_v0
  rfl

/-- The third list leaves the source words, the target words alone. -/
theorem s2_v3 : StableHlo.after (hostOps0_2 (F := Ideal)) W (Proc.devRef .tc main_v3) = W (Proc.devRef .tc main_v3) := by
  after_results
theorem s2_v6 : StableHlo.after (hostOps0_2 (F := Ideal)) W (Proc.devRef .tc main_v6) = W (Proc.devRef .tc main_v6) := by
  after_results

open Cert.ReferenceIdeal.ReadP in
/-- The third list, started where the source words, the target words and the per-node factor are the reference's, makes the
    reference's edge coefficients: each edge's is the product of the factors of its two end nodes (a negative word wraps once). -/
theorem s2_v30 (x1 : (⟨Cert.ReferenceIdeal.S2x1600000, .i32⟩ : BufTy).Contents (Elt Ideal))
    (e3 : W (Proc.devRef .tc main_v3) = val_main_v3 (F := Ideal) x1)
    (e6 : W (Proc.devRef .tc main_v6) = val_main_v6 (F := Ideal) x1)
    (e14 : W (Proc.devRef .tc main_v14) = val_main_v14 (F := Ideal) x1) :
    StableHlo.after (hostOps0_2 (F := Ideal)) W (Proc.devRef .tc main_v30) = val_main_v31 (F := Ideal) x1 := by
  after_results_simp
  rw [e3, e6, e14]
  unfold val_main_v31 val_main_v29 val_main_v21 val_main_v28 val_main_v20 val_main_v27 val_main_v19 val_main_v26
    val_main_v16 val_main_v18 val_main_v23 val_main_v25 val_main_v15 val_main_v17 val_main_v22 val_main_v24
    val_main_c val_main_c_3 val_main_c_4 val_main_c_5
  rfl

/-- The source words: the first row of the edge array followed by every node's own number. -/
theorem pre_v3 : pre W (Proc.devRef .tc main_v3)
    = Cert.ReferenceIdeal.ReadP.val_main_v3 (F := Ideal) (W (Proc.devRef .tc main_arg1)) := by
  show StableHlo.after hostOps0_2 (StableHlo.after hostOps0_1 (StableHlo.after (hostOps0 (F := Ideal)) W)) (Proc.devRef .tc main_v3) = _
  rw [s2_v3, s1_v3]
  exact s0_v3 W

/-- The target words: the second row of the edge array followed by every node's own number. -/
theorem pre_v6 : pre W (Proc.devRef .tc main_v6)
    = Cert.ReferenceIdeal.ReadP.val_main_v6 (F := Ideal) (W (Proc.devRef .tc main_arg1)) := by
  show StableHlo.after hostOps0_2 (StableHlo.after hostOps0_1 (StableHlo.after (hostOps0 (F := Ideal)) W)) (Proc.devRef .tc main_v6) = _
  rw [s2_v6, s1_v6]
  exact s0_v6 W

/-- The edge coefficients, as a column. -/
theorem pre_v30 : pre W (Proc.devRef .tc main_v30)
    = Cert.ReferenceIdeal.ReadP.val_main_v31 (F := Ideal) (W (Proc.devRef .tc main_arg1)) := by
  show StableHlo.after hostOps0_2 (StableHlo.after hostOps0_1 (StableHlo.after (hostOps0 (F := Ideal)) W)) (Proc.devRef .tc main_v30) = _
  exact s2_v30 _ (W (Proc.devRef .tc main_arg1)) (by rw [s1_v3]; exact s0_v3 W) (by rw [s1_v6]; exact s0_v6 W) (s01_v14 W)

/-- The first bias vector as a row. -/
theorem pre_v31 (k : Fin 128) : pre W (Proc.devRef .tc main_v31) (ix2 (0 : Fin 1) k) = W (Proc.devRef .tc main_arg4) (ix1 k) := by
  show StableHlo.after hostOps0_2 (StableHlo.after hostOps0_1 (StableHlo.after (hostOps0 (F := Ideal)) W)) (Proc.devRef .tc main_v31) (ix2 (0 : Fin 1) k) = _
  after_results
  show shapeCast S1x128 (W (Proc.devRef .tc main_arg4)) shapeCasts_S128_S1x128 (ix2 (0 : Fin 1) k) = _
  -- entry (0, k) of the row and entry k of the vector sit at the same row-major position
  exact shapeCast_apply _ shapeCasts_S128_S1x128 (ix2 (0 : Fin 1) k) (ix1 k)
    (by rewrite [Shape.rowMajor_val_one, Shape.rowMajor_val_two]; show k.val = 0 * 128 + k.val; omega)

/-- The stacked pair of bias vectors with a unit axis between. -/
theorem pre_v32 : pre W (Proc.devRef .tc main_v32)
    = shapeCast S2x1x128 (W (Proc.devRef .tc main_arg6)) shapeCasts_S2x128_S2x1x128 := by
  show StableHlo.after hostOps0_2 (StableHlo.after hostOps0_1 (StableHlo.after (hostOps0 (F := Ideal)) W)) (Proc.devRef .tc main_v32) = _
  after_results
  rfl

/-! ## The stretch between the first and the second region: one aggregation, the first weight matrix of the pair -/

theorem h1_v45 : StableHlo.after (hostOps1 (F := Ideal)) W (Proc.devRef .tc main_v45)
    = Cert.Spec.msg (F := Ideal) (W (Proc.devRef .tc main_v3)) (W (Proc.devRef .tc main_v6)) (W (Proc.devRef .tc main_v30))
        (W (Proc.devRef .tc main_v33)) := by
  after_results_simp
  unfold Cert.Spec.msg
  rfl

theorem h1_v47 : StableHlo.after (hostOps1 (F := Ideal)) W (Proc.devRef .tc main_v47)
    = Cert.Spec.w0 (F := Ideal) (W (Proc.devRef .tc main_arg5)) := by
  after_results_simp
  unfold Cert.Spec.w0
  rfl

/-! ## The stretch between the second and the third region -/

theorem h2_v62 : StableHlo.after (hostOps2 (F := Ideal)) W (Proc.devRef .tc main_v62)
    = Cert.Spec.msg (F := Ideal) (W (Proc.devRef .tc main_v3)) (W (Proc.devRef .tc main_v6)) (W (Proc.devRef .tc main_v30))
        (W (Proc.devRef .tc main_v48)) := by
  after_results_simp
  unfold Cert.Spec.msg
  rfl

theorem h2_v64 : StableHlo.after (hostOps2 (F := Ideal)) W (Proc.devRef .tc main_v64)
    = Cert.Spec.w1 (F := Ideal) (W (Proc.devRef .tc main_arg5)) := by
  after_results_simp
  unfold Cert.Spec.w1
  rfl

/-- The first bias vector of the pair as a row, entry by entry. -/
theorem h2_v50 (x6 : (⟨Cert.ReferenceIdeal.S2x128, .f32⟩ : BufTy).Contents (Elt Ideal))
    (h32 : W (Proc.devRef .tc main_v32) = shapeCast S2x1x128 x6 shapeCasts_S2x128_S2x1x128) (k : Fin 128) :
    StableHlo.after (hostOps2 (F := Ideal)) W (Proc.devRef .tc main_v50) (ix2 (0 : Fin 1) k)
      = Cert.Spec.b0 (F := Ideal) x6 (ix1 k) := by
  after_results_simp
  rw [h32]
  -- the row read at k is the slice at (0, 0, k), the stacked pair at (0, 0, k), the pair of vectors at (0, k)
  refine (shapeCast_apply _ shapeCasts_S1x1x128_S1x128 (ix2 (0 : Fin 1) k) (ix3 (0 : Fin 1) (0 : Fin 1) k)
    (by rewrite [Shape.rowMajor_val_three, Shape.rowMajor_val_two]; show (0 * 1 + 0) * 128 + k.val = 0 * 128 + k.val; omega)).trans ?_
  refine (extractStridedSlice_apply ![0, 0, 0] _ slices_S2x1x128_S1x1x128_0_0_0 (ix3 (0 : Fin 1) (0 : Fin 1) k) (ix3 (0 : Fin 2) (0 : Fin 1) k)
    (fun a => match a with
      | ⟨0, _⟩ => by show 0 = 0 + 0; omega
      | ⟨1, _⟩ => by show 0 = 0 + 0; omega
      | ⟨2, _⟩ => by show k.val = 0 + k.val; omega)).trans ?_
  refine (shapeCast_apply x6 shapeCasts_S2x128_S2x1x128 (ix3 (0 : Fin 2) (0 : Fin 1) k) (ix2 (0 : Fin 2) k)
    (by rewrite [Shape.rowMajor_val_two, Shape.rowMajor_val_three]; show 0 * 128 + k.val = (0 * 1 + 0) * 128 + k.val; omega)).trans ?_
  -- the reference's vector read at k is the same entry
  unfold Cert.Spec.b0
  refine ((shapeCast_apply _ Cert.ReferenceIdeal.Gen.shapeCasts_S1x128_S128 (ix1 k) (ix2 (0 : Fin 1) k)
    (by rewrite [Shape.rowMajor_val_two, Shape.rowMajor_val_one]; show 0 * 128 + k.val = k.val; omega)).trans ?_).symm
  exact extractStridedSlice_apply ![0, 0] x6 Cert.ReferenceIdeal.Gen.slices_S2x128_S1x128_0_0 (ix2 (0 : Fin 1) k) (ix2 (0 : Fin 2) k)
    (fun a => match a with
      | ⟨0, _⟩ => by show 0 = 0 + 0; omega
      | ⟨1, _⟩ => by show k.val = 0 + k.val; omega)

/-! ## The stretch between the third region and the pooling region -/

theorem h3_v79 : StableHlo.after (hostOps3 (F := Ideal)) W (Proc.devRef .tc main_v79)
    = Cert.Spec.msg (F := Ideal) (W (Proc.devRef .tc main_v3)) (W (Proc.devRef .tc main_v6)) (W (Proc.devRef .tc main_v30))
        (W (Proc.devRef .tc main_v65)) := by
  after_results_simp
  unfold Cert.Spec.msg
  rfl

/-- The second bias vector of the pair as a row, entry by entry. -/
theorem h3_v67 (x6 : (⟨Cert.ReferenceIdeal.S2x128, .f32⟩ : BufTy).Contents (Elt Ideal))
    (h32 : W (Proc.devRef .tc main_v32) = shapeCast S2x1x128 x6 shapeCasts_S2x128_S2x1x128) (k : Fin 128) :
    StableHlo.after (hostOps3 (F := Ideal)) W (Proc.devRef .tc main_v67) (ix2 (0 : Fin 1) k)
      = Cert.Spec.b1 (F := Ideal) x6 (ix1 k) := by
  after_results_simp
  rw [h32]
  -- the row read at k is the slice at (0, 0, k), the stacked pair at (1, 0, k), the pair of vectors at (1, k)
  refine (shapeCast_apply _ shapeCasts_S1x1x128_S1x128 (ix2 (0 : Fin 1) k) (ix3 (0 : Fin 1) (0 : Fin 1) k)
    (by rewrite [Shape.rowMajor_val_three, Shape.rowMajor_val_two]; show (0 * 1 + 0) * 128 + k.val = 0 * 128 + k.val; omega)).trans ?_
  refine (extractStridedSlice_apply ![1, 0, 0] _ slices_S2x1x128_S1x1x128_1_0_0 (ix3 (0 : Fin 1) (0 : Fin 1) k) (ix3 (1 : Fin 2) (0 : Fin 1) k)
    (fun a => match a with
      | ⟨0, _⟩ => by show 1 = 1 + 0; omega
      | ⟨1, _⟩ => by show 0 = 0 + 0; omega
      | ⟨2, _⟩ => by show k.val = 0 + k.val; omega)).trans ?_
  refine (shapeCast_apply x6 shapeCasts_S2x128_S2x1x128 (ix3 (1 : Fin 2) (0 : Fin 1) k) (ix2 (1 : Fin 2) k)
    (by rewrite [Shape.rowMajor_val_two, Shape.rowMajor_val_three]; show 1 * 128 + k.val = (1 * 1 + 0) * 128 + k.val; omega)).trans ?_
  -- the reference's vector read at k is the same entry
  unfold Cert.Spec.b1
  refine ((shapeCast_apply _ Cert.ReferenceIdeal.Gen.shapeCasts_S1x128_S128 (ix1 k) (ix2 (0 : Fin 1) k)
    (by rewrite [Shape.rowMajor_val_two, Shape.rowMajor_val_one]; show 0 * 128 + k.val = k.val; omega)).trans ?_).symm
  exact extractStridedSlice_apply ![1, 0] x6 Cert.ReferenceIdeal.Gen.slices_S2x128_S1x128_1_0 (ix2 (0 : Fin 1) k) (ix2 (1 : Fin 2) k)
    (fun a => match a with
      | ⟨0, _⟩ => by show 1 = 1 + 0; omega
      | ⟨1, _⟩ => by show k.val = 0 + k.val; omega)

/-- At the exact reals, the conversion of an equality test of two words is one when they are equal and zero otherwise. -/
theorem uitofp_cmpi_eq (x y : BitVec 32) :
    (FloatOps.uitofp (F := Ideal) .bf16 (IntOp.cmpi .eq x y) : EReal) = if x = y then 1 else 0 := by
  show (((IntOp.cmpi .eq x y).toNat : ℝ) : EReal) = _
  unfold IntOp.cmpi
  by_cases h : x = y
  · rw [if_pos h]; subst h; simp
  · rw [if_neg h]; simp [h]

/-- The membership array: one where node `n`'s word is graph `g`'s number, zero elsewhere. -/
theorem h3_v86 (n : Fin 100000) (g : Fin 128) :
    StableHlo.after (hostOps3 (F := Ideal)) W (Proc.devRef .tc main_v86) (ix2 n g)
      = if W (Proc.devRef .tc main_arg2) (ix1 n) = BitVec.ofNat 32 g.val then (1 : EReal) else 0 := by
  after_results_simp
  -- the node words laid along the rows, read at (n, g), are node n's word
  have eA : broadcastInDim S100000x128 ![0, 1] bcast_S100000x1_S100000x128_0_1
        (broadcastInDim S100000x1 ![0] bcast_S100000_S100000x1_0 (W (Proc.devRef .tc main_arg2))) (ix2 n g)
      = W (Proc.devRef .tc main_arg2) (ix1 n) :=
    (broadcastInDim_apply ![0, 1] bcast_S100000x1_S100000x128_0_1
      (broadcastInDim S100000x1 ![0] bcast_S100000_S100000x1_0 (W (Proc.devRef .tc main_arg2))) (ix2 n g) (ix2 n (0 : Fin 1))
      (fun a => match a with | ⟨0, _⟩ => rfl | ⟨1, _⟩ => rfl)).trans
    (broadcastInDim_apply ![0] bcast_S100000_S100000x1_0 (W (Proc.devRef .tc main_arg2)) (ix2 n (0 : Fin 1)) (ix1 n)
      (fun a => match a with | ⟨0, _⟩ => rfl))
  -- the graph numbers laid along the columns, read at (n, g), are g's word
  have eB : broadcastInDim S100000x128 ![0, 1] bcast_S1x128_S100000x128_0_1
        (broadcastInDim S1x128 ![1] bcast_S128_S1x128_1 (iotaInDim S128 32 0)) (ix2 n g)
      = BitVec.ofNat 32 g.val :=
    (broadcastInDim_apply ![0, 1] bcast_S1x128_S100000x128_0_1
      (broadcastInDim S1x128 ![1] bcast_S128_S1x128_1 (iotaInDim S128 32 0)) (ix2 n g) (ix2 (0 : Fin 1) g)
      (fun a => match a with | ⟨0, _⟩ => rfl | ⟨1, _⟩ => rfl)).trans
    ((broadcastInDim_apply ![1] bcast_S128_S1x128_1 (iotaInDim S128 32 0) (ix2 (0 : Fin 1) g) (ix1 g)
      (fun a => match a with | ⟨0, _⟩ => rfl)).trans rfl)
  show FloatOps.uitofp (F := Ideal) .bf16 (IntOp.cmpi .eq
      (broadcastInDim S100000x128 ![0, 1] bcast_S100000x1_S100000x128_0_1
        (broadcastInDim S100000x1 ![0] bcast_S100000_S100000x1_0 (W (Proc.devRef .tc main_arg2))) (ix2 n g))
      (broadcastInDim S100000x128 ![0, 1] bcast_S1x128_S100000x128_0_1
        (broadcastInDim S1x128 ![1] bcast_S128_S1x128_1 (iotaInDim S128 32 0)) (ix2 n g))) = _
  rw [eA, eB]
  exact uitofp_cmpi_eq _ _

/-! ## The stretch before the last region: the classifier's two bias vectors as rows -/

theorem h4_v88 (k : Fin 128) :
    StableHlo.after (hostOps4 (F := Ideal)) W (Proc.devRef .tc main_v88) (ix2 (0 : Fin 1) k) = W (Proc.devRef .tc main_arg8) (ix1 k) := by
  after_results
  show shapeCast S1x128 (W (Proc.devRef .tc main_arg8)) shapeCasts_S128_S1x128 (ix2 (0 : Fin 1) k) = _
  exact shapeCast_apply _ shapeCasts_S128_S1x128 (ix2 (0 : Fin 1) k) (ix1 k)
    (by rewrite [Shape.rowMajor_val_one, Shape.rowMajor_val_two]; show k.val = 0 * 128 + k.val; omega)

theorem h4_v89 (k : Fin 10) :
    StableHlo.after (hostOps4 (F := Ideal)) W (Proc.devRef .tc main_v89) (ix2 (0 : Fin 1) k) = W (Proc.devRef .tc main_arg10) (ix1 k) := by
  after_results
  show shapeCast S1x10 (W (Proc.devRef .tc main_arg10)) shapeCasts_S10_S1x10 (ix2 (0 : Fin 1) k) = _
  exact shapeCast_apply _ shapeCasts_S10_S1x10 (ix2 (0 : Fin 1) k) (ix1 k)
    (by rewrite [Shape.rowMajor_val_one, Shape.rowMajor_val_two]; show k.val = 0 * 10 + k.val; omega)

end Cert.KernelIdeal.Host

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.R0.lean ====
import proofs.«427432_j47828755808670_1_alg».proof.Proof.Gen.KernelIdeal.Frame
import proofs.«427432_j47828755808670_1_alg».proof.Proof.Spec
import proofs.«427432_j47828755808670_1_alg».proof.Proof.LibPlainDot
import Idealize.ShloMosaic.Lib.Pipeline.Value
set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The offsets of a load or store of a whole staging buffer are zero on both axes. -/
theorem zeroOffsets : (![0, 0] : Fin 2 → Nat) = fun _ => 0 := funext fun a => by fin_cases a <;> rfl

/-- The body's product at row `p` and column `q` of a block: the block's row against the weights' column (narrowing to
    bf16 changes nothing at the ideal values, and the accumulator is the zero splat). -/
theorem pay_apply (x0 : FVec Ideal S10000x128 .f32) (x1 : FVec Ideal S128x128 .f32) (p : Fin 10000) (q : Fin 128) :
    k0_pay1 (F := Ideal) x0 x1 (ix2 p q) = ∑ k : Fin 128, x0 (ix2 p k) * x1 (ix2 k q) := by
  unfold k0_pay1
  exact Cert.LibPlainDot.matmul_zero_apply dot_S10000x128_S128x128_S10000x128_1_0_0_1_n_n rfl rfl rfl rfl rfl rfl none x0 x1 p q

/-- The host's product of the whole arrays at row `r` and column `q`: the same sum over the 128 features. -/
theorem proj_apply (X : Cert.Spec.Nodes Ideal) (W : Cert.Spec.Mat Ideal) (r : Fin 100000) (q : Fin 128) :
    Cert.Spec.proj (F := Ideal) X W (ix2 r q) = ∑ k : Fin 128, X (ix2 r k) * W (ix2 k q) := by
  unfold Cert.Spec.proj
  exact Cert.LibPlainDot.dotGeneral_apply Cert.ReferenceIdeal.dot_S100000x128_S128x128_S100000x128_1_0_0_1_n_n rfl rfl rfl rfl rfl rfl none .single X W r q

/-- The printed index maps over the ten points: the node window and the output window sit at row block `t`, column block
    0; the weight window at block (0, 0). -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node window's block at point `t`, read at row `p` and column `k`, is the node array at row `10000·t + p`: a
    block's coordinate is the block index times the block's size plus the coordinate inside the block. -/
theorem nodes_block (c : Dev nD) (t : Fin cfg0.N) (p : Fin 10000) (k : Fin 128) (r : Fin 100000)
    (hr : r.val = t.val * 10000 + p.val) :
    (iblk0 V c 0 t : Vec Ideal S10000x128 .f32) (ix2 p k) = (V c main_arg0 : S100000x128.Idx → Elt Ideal .f32) (ix2 r k) := by
  obtain ⟨e0, e1, -, -, -, -⟩ := blockIndex t
  unfold iblk0
  rw [View.read_apply]
  show V c main_arg0 _ = V c main_arg0 _
  congr 1
  funext a
  apply Fin.ext
  match a with
  | ⟨0, _⟩ => show win0_0.index t 0 * 10000 + 1 * p.val = r.val; rw [e0, hr]; omega
  | ⟨1, _⟩ => show win0_0.index t 1 * 128 + 1 * k.val = k.val; rw [e1]; omega

/-- The weight window's block is the whole weight matrix at every point. -/
theorem weights_block (c : Dev nD) (t : Fin cfg0.N) (k q : Fin 128) :
    (iblk0 V c 1 t : Vec Ideal S128x128 .f32) (ix2 k q) = (V c main_arg3 : S128x128.Idx → Elt Ideal .f32) (ix2 k q) := by
  obtain ⟨-, -, e2, e3, -, -⟩ := blockIndex t
  unfold iblk0
  rw [View.read_apply]
  show V c main_arg3 _ = V c main_arg3 _
  congr 1
  funext a
  apply Fin.ext
  match a with
  | ⟨0, _⟩ => show win0_1.index t 0 * 128 + 1 * k.val = k.val; rw [e2]; omega
  | ⟨1, _⟩ => show win0_1.index t 1 * 128 + 1 * q.val = q.val; rw [e3]; omega

/-- What point `t` writes back is block `t` of the product of the whole arrays: rows `10000·t … 10000·t + 9999`. -/
theorem flushed_eq (c : Dev nD) (t : Fin cfg0.N) :
    (dat0 V c).flushed 2 t
      = ((cfg0.win 2).blk t).view.read (Elt Ideal) (Cert.Spec.proj (F := Ideal) (V c main_arg0) (V c main_arg3)) := by
  show (cfg0.win 2).cut (grid0.coords t) ((dat0 V c).after 2 t) = _
  rw [after0_2]
  unfold out0_2
  rw [View.canon_unit_zero zeroOffsets]
  simp only [View.ld_unit_zero (S := S10000x128) zeroOffsets, View.ld_unit_zero (S := S128x128) zeroOffsets]
  obtain ⟨-, -, -, -, e4, e5⟩ := blockIndex t
  funext j
  obtain ⟨p, q, rfl⟩ : ∃ (p : Fin 10000) (q : Fin 128), j = ix2 p q := ⟨j 0, j 1, eq_ix2 j⟩
  have ht : t.val < 10 := t.isLt
  have hr : t.val * 10000 + p.val < 100000 := by have := p.isLt; omega
  show k0_pay1 (F := Ideal) (iblk0 V c 0 t) (iblk0 V c 1 t) (ix2 p q)
    = Cert.Spec.proj (F := Ideal) (V c main_arg0) (V c main_arg3) (((cfg0.win 2).blk t).view.emb (ix2 p q))
  have hemb : ((cfg0.win 2).blk t).view.emb (ix2 p q) = ix2 (⟨t.val * 10000 + p.val, hr⟩ : Fin 100000) q := by
    funext a; apply Fin.ext
    match a with
    | ⟨0, _⟩ => show win0_2.index t 0 * 10000 + 1 * p.val = t.val * 10000 + p.val; rw [e4]; omega
    | ⟨1, _⟩ => show win0_2.index t 1 * 128 + 1 * q.val = q.val; rw [e5]; omega
  rw [hemb, pay_apply, proj_apply]
  refine Finset.sum_congr rfl fun k _ => ?_
  rw [nodes_block V c t p k ⟨_, hr⟩ rfl, weights_block V c t k q]

/-- Every index of the output array lies in some point's block: row `r` is in the block of point `r / 10000`, and the
    one column block spans all 128 columns. -/
theorem covered (i : S100000x128.Idx) :
    ∃ t : Fin cfg0.N, (cfg0.win 2).flush t = true ∧ i ∈ ((cfg0.win 2).blk t).view.set := by
  have h0 : (i 0).val < 100000 := (i 0).isLt
  have h1 : (i 1).val < 128 := (i 1).isLt
  have hq : (i 0).val / 10000 < 10 := by omega
  obtain ⟨-, -, -, -, e4, e5⟩ := blockIndex ⟨(i 0).val / 10000, hq⟩
  refine ⟨⟨(i 0).val / 10000, hq⟩, flush0_2 _, ?_⟩
  show i ∈ ((View.whole main_v33).slice (win0_2.rect ⟨(i 0).val / 10000, hq⟩)).set
  rw [View.set_slice_whole, Rect.mem_set_unit]
  intro a
  match a with
  | ⟨0, _⟩ =>
    show win0_2.index ⟨(i 0).val / 10000, hq⟩ 0 * 10000 ≤ (i 0).val
      ∧ (i 0).val < win0_2.index ⟨(i 0).val / 10000, hq⟩ 0 * 10000 + 10000
    rw [e4]; show (i 0).val / 10000 * 10000 ≤ (i 0).val ∧ (i 0).val < (i 0).val / 10000 * 10000 + 10000; omega
  | ⟨1, _⟩ =>
    show win0_2.index ⟨(i 0).val / 10000, hq⟩ 1 * 128 ≤ (i 1).val
      ∧ (i 1).val < win0_2.index ⟨(i 0).val / 10000, hq⟩ 1 * 128 + 128
    rw [e5]; omega

/-- After the first region its output array holds the node features times the first weight matrix. -/
theorem arr (c : Dev nD) :
    (dat0 V c).arrAt 2 cfg0.N = Cert.Spec.proj (F := Ideal) (V c main_arg0) (V c main_arg3) :=
  (dat0 V c).arrAt_eq_of_cover 2 _ (fun t _ => flushed_eq V c t) covered

end Cert.KernelIdeal.Region0

end
-- ==== Proof.R1.lean ====
import proofs.«427432_j47828755808670_1_alg».proof.Proof.Gen.KernelIdeal.Frame
import proofs.«427432_j47828755808670_1_alg».proof.Proof.Spec
import proofs.«427432_j47828755808670_1_alg».proof.Proof.LibPlainDot
import Idealize.ShloMosaic.Lib.Pipeline.Value
set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The body's arithmetic at an entry of its block: over the 128 features, the clamped sum of the feature block's entry
    and the bias row's, times the weight's. The shape casts are to the same shapes, the bias row is laid along every
    row of the block, the truncations are the identity on extended reals, and the product into the zero accumulator is
    the plain sum over the contracted axis. -/
theorem pay_apply (x0 : Vec Ideal S10000x128 .f32) (x1 : Vec Ideal S1x128 .f32) (x2 : Vec Ideal S128x128 .f32)
    (p : Fin 10000) (q : Fin 128) :
    (k1_pay1 (F := Ideal) x0 x1 x2 : S10000x128.Idx → EReal) (ix2 p q)
      = Finset.univ.sum fun k : Fin 128 => max (x0 (ix2 p k) + x1 (ix2 (0 : Fin 1) k)) 0 * x2 (ix2 k q) := by
  unfold k1_pay1
  refine (Cert.LibPlainDot.matmul_zero_apply dot_S10000x128_S128x128_S10000x128_1_0_0_1_n_n rfl rfl rfl rfl rfl rfl none _ _ p q).trans ?_
  refine Finset.sum_congr rfl fun k _ => ?_
  rw [shapeCast_self, shapeCast_self, shapeCast_self]
  show max (x0 (ix2 p k) + broadcastTo S10000x128 x1 broadcasts_S1x128_S10000x128 (ix2 p k)) (Ideal.ofBits .f32 0x00000000#32) * x2 (ix2 k q) = _
  rw [broadcastTo_apply x1 broadcasts_S1x128_S10000x128 (ix2 p k) (ix2 (0 : Fin 1) k)
    (fun a => match a with | ⟨0, _⟩ => rfl | ⟨1, _⟩ => rfl), Ideal.ofBits_zero_f32]

/-- The layer at an entry: the host's product is the plain sum over the 128 features; the bias vector, laid first as a
    row and then along every node's row, is read at the feature; the clamp's constant is zero. -/
theorem layer_apply (agg : Cert.Spec.Nodes Ideal) (bvec : Cert.Spec.Vec128 Ideal) (w : Cert.Spec.Mat Ideal)
    (r : Fin 100000) (q : Fin 128) :
    (Cert.Spec.layer (F := Ideal) agg bvec w : (⟨2, ![100000, 128]⟩ : Shape).Idx → EReal) (ix2 r q)
      = Finset.univ.sum fun k : Fin 128 => max (agg (ix2 r k) + bvec (ix1 k)) 0 * w (ix2 k q) := by
  unfold Cert.Spec.layer Cert.Spec.proj
  refine (Cert.LibPlainDot.dotGeneral_apply Cert.ReferenceIdeal.dot_S100000x128_S128x128_S100000x128_1_0_0_1_n_n rfl rfl rfl rfl rfl rfl none .single _ _ r q).trans ?_
  refine Finset.sum_congr rfl fun k _ => ?_
  unfold Cert.Spec.act Cert.Spec.biasRows
  show max (agg (ix2 r k) + broadcastInDim Cert.ReferenceIdeal.S100000x128 ![0, 1] _
      (broadcastInDim Cert.ReferenceIdeal.S1x128 ![1] _ bvec) (ix2 r k))
      (broadcastInDim Cert.ReferenceIdeal.S100000x128 ![] _ (constant (F := Ideal) Cert.ReferenceIdeal.S_ .f32 0x00000000#32) (ix2 r k)) * w (ix2 k q) = _
  rw [broadcastInDim_apply ![0, 1] _ _ (ix2 r k) (ix2 (0 : Fin 1) k)
      (fun a => match a with | ⟨0, _⟩ => rfl | ⟨1, _⟩ => rfl),
    broadcastInDim_apply ![1] _ bvec (ix2 (0 : Fin 1) k) (ix1 k)
      (fun a => match a with | ⟨0, _⟩ => rfl),
    broadcastInDim_apply ![] _ _ (ix2 r k) ix0 (fun a => a.elim0)]
  show max _ (Ideal.ofBits .f32 0x00000000#32) * _ = _
  rw [Ideal.ofBits_zero_f32]

/-- The body's loads and its store go through the whole staging buffers: offsets zero on both axes. -/
theorem hz : (![0, 0] : Fin 2 → Nat) = fun _ => 0 := funext fun a => match a with | ⟨0, _⟩ => rfl | ⟨1, _⟩ => rfl

/-- The printed index maps over the ten points: the feature blocks and the output blocks move down the rows with the
    point, the bias row and the weight matrix stay whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the feature block at point `t` is row `10000 t + p` of the aggregated features. -/
theorem agg_blk (c : Dev nD) (t : Fin cfg1.N) (p : Fin 10000) (k : Fin 128) (r : Fin 100000) (hr : r.val = 10000 * t.val + p.val) :
    (iblk1 V c 0 t : S10000x128.Idx → EReal) (ix2 p k) = (V c main_v45 : S100000x128.Idx → EReal) (ix2 r k) := by
  obtain ⟨e0, e1, -⟩ := idx_facts t
  unfold iblk1
  rw [View.read_apply]
  show V c main_v45 _ = V c main_v45 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- The bias block at every point is the whole bias row, so its entries are the bias vector's. -/
theorem bias_blk (c : Dev nD) (bvec : Cert.Spec.Vec128 Ideal)
    (hb : ∀ k : Fin 128, V c main_v31 (ix2 (0 : Fin 1) k) = bvec (ix1 k)) (t : Fin cfg1.N) (k : Fin 128) :
    (iblk1 V c 1 t : S1x128.Idx → EReal) (ix2 (0 : Fin 1) k) = bvec (ix1 k) := by
  obtain ⟨-, -, e0, e1, -⟩ := idx_facts t
  refine Eq.trans ?_ (hb k)
  unfold iblk1
  rw [View.read_apply]
  show V c main_v31 _ = V c main_v31 _
  congr 1
  funext a
  apply Fin.ext
  match a with
  | ⟨0, _⟩ => show win1_1.index t (0 : Fin 2) * 1 + 1 * 0 = 0; rw [e0]
  | ⟨1, _⟩ => show win1_1.index t (1 : Fin 2) * 128 + 1 * k.val = k.val; rw [e1]; omega

/-- The weight block at every point is the whole weight matrix. -/
theorem w_blk (c : Dev nD) (t : Fin cfg1.N) (k q : Fin 128) :
    (iblk1 V c 2 t : S128x128.Idx → EReal) (ix2 k q) = (V c main_v47 : S128x128.Idx → EReal) (ix2 k q) := by
  obtain ⟨-, -, -, -, e0, e1, -⟩ := idx_facts t
  unfold iblk1
  rw [View.read_apply]
  show V c main_v47 _ = V c main_v47 _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- What point `t` writes back is block `t` of the layer applied to the arrays the region was entered with: the one
    store leaves the body's arithmetic of the three loaded blocks, entry `(p, q)` of the block sits at row `10000 t + p`
    of the array, and there both sides are the same sum over the features. -/
theorem flushed_eq (c : Dev nD) (bvec : Cert.Spec.Vec128 Ideal)
    (hb : ∀ k : Fin 128, V c main_v31 (ix2 (0 : Fin 1) k) = bvec (ix1 k)) (t : Fin cfg1.N) :
    (dat1 V c).flushed 3 t
      = ((cfg1.win 3).blk t).view.read (Elt Ideal) (Cert.Spec.layer (F := Ideal) (V c main_v45) bvec (V c main_v47)) := by
  have hN : cfg1.N = 10 := N_1
  show (cfg1.win 3).cut (grid1.coords t) ((dat1 V c).after 3 t) = _
  rw [after1_3]
  unfold out1_3
  rw [View.canon_unit_zero hz]
  simp only [View.ld_unit_zero (S := S10000x128) hz, View.ld_unit_zero (S := S1x128) hz, View.ld_unit_zero (S := S128x128) hz]
  funext j
  obtain ⟨p, q, rfl⟩ : ∃ (p : Fin 10000) (q : Fin 128), j = ix2 p q := ⟨j 0, j 1, eq_ix2 (n0 := 10000) (n1 := 128) j⟩
  have hp : p.val < 10000 := p.isLt
  have ht : t.val < 10 := hN ▸ t.isLt
  obtain ⟨-, -, -, -, -, -, e0, e1⟩ := idx_facts t
  have hemb : ((cfg1.win 3).blk t).view.emb (ix2 p q) = (ix2 (⟨10000 * t.val + p.val, by omega⟩ : Fin 100000) q : S100000x128.Idx) := by
    funext a
    apply Fin.ext
    match a with
    | ⟨0, _⟩ => show win1_3.index t (0 : Fin 2) * 10000 + 1 * p.val = 10000 * t.val + p.val; rw [e0]; omega
    | ⟨1, _⟩ => show win1_3.index t (1 : Fin 2) * 128 + 1 * q.val = q.val; rw [e1]; omega
  rw [View.read_apply, hemb]
  refine (pay_apply (iblk1 V c 0 t) (iblk1 V c 1 t) (iblk1 V c 2 t) p q).trans ?_
  refine Eq.trans ?_ (layer_apply (V c main_v45) bvec (V c main_v47) ⟨10000 * t.val + p.val, by omega⟩ q).symm
  refine Finset.sum_congr rfl fun k _ => ?_
  rw [agg_blk V c t p k ⟨10000 * t.val + p.val, by omega⟩ rfl, bias_blk V c bvec hb t k, w_blk V c t k q]

/-- An index of the array is in point `t`'s block iff each coordinate is in the block's range on its axis. -/
theorem mem_blk (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v48).slice (win1_3.rect t)).set ↔ _
  rw [View.set_slice_whole, Rect.mem_set_unit]
  exact Iff.rfl

/-- Every row of the array lies in the block of the point that its row number divided by 10000 names, and every point
    writes its block back. -/
theorem cover (i : S100000x128.Idx) : ∃ t : Fin cfg1.N, (cfg1.win 3).flush t = true ∧ i ∈ ((cfg1.win 3).blk t).view.set := by
  have hN : cfg1.N = 10 := N_1
  have hi0 : (i 0).val < 100000 := (i 0).isLt
  have hi1 : (i 1).val < 128 := (i 1).isLt
  refine ⟨⟨(i 0).val / 10000, by omega⟩, flush1_3 _, ?_⟩
  rw [mem_blk]
  obtain ⟨-, -, -, -, -, -, e0, e1⟩ := idx_facts ⟨(i 0).val / 10000, by omega⟩
  intro a
  match a with
  | ⟨0, _⟩ =>
    show win1_3.index _ (0 : Fin 2) * 10000 ≤ (i 0).val ∧ (i 0).val < win1_3.index _ (0 : Fin 2) * 10000 + 10000
    rw [e0]; show (i 0).val / 10000 * 10000 ≤ (i 0).val ∧ (i 0).val < (i 0).val / 10000 * 10000 + 10000; omega
  | ⟨1, _⟩ =>
    show win1_3.index _ (1 : Fin 2) * 128 ≤ (i 1).val ∧ (i 1).val < win1_3.index _ (1 : Fin 2) * 128 + 128
    rw [e1]; omega

/-- After the second region its output array holds the layer applied to the aggregated features it was entered with:
    bias row added, clamp at zero, times the weight matrix. The bias row is given entry by entry. -/
theorem arr (c : Dev nD) (bvec : Cert.Spec.Vec128 Ideal)
    (hb : ∀ k : Fin 128, V c main_v31 (ix2 (0 : Fin 1) k) = bvec (ix1 k)) :
    (dat1 V c).arrAt 3 cfg1.N = Cert.Spec.layer (F := Ideal) (V c main_v45) bvec (V c main_v47) :=
  (dat1 V c).arrAt_eq_of_cover 3 (Cert.Spec.layer (F := Ideal) (V c main_v45) bvec (V c main_v47))
    (fun t _ => flushed_eq V c bvec hb t) cover

end Cert.KernelIdeal.Region1

end
-- ==== Proof.R2.lean ====
import proofs.«427432_j47828755808670_1_alg».proof.Proof.Gen.KernelIdeal.Frame
import proofs.«427432_j47828755808670_1_alg».proof.Proof.Spec
import proofs.«427432_j47828755808670_1_alg».proof.Proof.LibPlainDot
import Idealize.ShloMosaic.Lib.Pipeline.Value
set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- The body's arithmetic at an entry of its block: over the 128 features, the clamped sum of the feature block's entry
    and the bias row's, times the weight's. The shape casts are to the same shapes, the bias row is laid along every
    row of the block, the truncations are the identity on extended reals, and the product into the zero accumulator is
    the plain sum over the contracted axis. -/
theorem pay_apply (x0 : Vec Ideal S10000x128 .f32) (x1 : Vec Ideal S1x128 .f32) (x2 : Vec Ideal S128x128 .f32)
    (p : Fin 10000) (q : Fin 128) :
    (k2_pay1 (F := Ideal) x0 x1 x2 : S10000x128.Idx → EReal) (ix2 p q)
      = Finset.univ.sum fun k : Fin 128 => max (x0 (ix2 p k) + x1 (ix2 (0 : Fin 1) k)) 0 * x2 (ix2 k q) := by
  unfold k2_pay1
  refine (Cert.LibPlainDot.matmul_zero_apply dot_S10000x128_S128x128_S10000x128_1_0_0_1_n_n rfl rfl rfl rfl rfl rfl none _ _ p q).trans ?_
  refine Finset.sum_congr rfl fun k _ => ?_
  rw [shapeCast_self, shapeCast_self, shapeCast_self]
  show max (x0 (ix2 p k) + broadcastTo S10000x128 x1 broadcasts_S1x128_S10000x128 (ix2 p k)) (Ideal.ofBits .f32 0x00000000#32) * x2 (ix2 k q) = _
  rw [broadcastTo_apply x1 broadcasts_S1x128_S10000x128 (ix2 p k) (ix2 (0 : Fin 1) k)
    (fun a => match a with | ⟨0, _⟩ => rfl | ⟨1, _⟩ => rfl), Ideal.ofBits_zero_f32]

/-- The layer at an entry: the host's product is the plain sum over the 128 features; the bias vector, laid first as a
    row and then along every node's row, is read at the feature; the clamp's constant is zero. -/
theorem layer_apply (agg : Cert.Spec.Nodes Ideal) (bvec : Cert.Spec.Vec128 Ideal) (w : Cert.Spec.Mat Ideal)
    (r : Fin 100000) (q : Fin 128) :
    (Cert.Spec.layer (F := Ideal) agg bvec w : (⟨2, ![100000, 128]⟩ : Shape).Idx → EReal) (ix2 r q)
      = Finset.univ.sum fun k : Fin 128 => max (agg (ix2 r k) + bvec (ix1 k)) 0 * w (ix2 k q) := by
  unfold Cert.Spec.layer Cert.Spec.proj
  refine (Cert.LibPlainDot.dotGeneral_apply Cert.ReferenceIdeal.dot_S100000x128_S128x128_S100000x128_1_0_0_1_n_n rfl rfl rfl rfl rfl rfl none .single _ _ r q).trans ?_
  refine Finset.sum_congr rfl fun k _ => ?_
  unfold Cert.Spec.act Cert.Spec.biasRows
  show max (agg (ix2 r k) + broadcastInDim Cert.ReferenceIdeal.S100000x128 ![0, 1] _
      (broadcastInDim Cert.ReferenceIdeal.S1x128 ![1] _ bvec) (ix2 r k))
      (broadcastInDim Cert.ReferenceIdeal.S100000x128 ![] _ (constant (F := Ideal) Cert.ReferenceIdeal.S_ .f32 0x00000000#32) (ix2 r k)) * w (ix2 k q) = _
  rw [broadcastInDim_apply ![0, 1] _ _ (ix2 r k) (ix2 (0 : Fin 1) k)
      (fun a => match a with | ⟨0, _⟩ => rfl | ⟨1, _⟩ => rfl),
    broadcastInDim_apply ![1] _ bvec (ix2 (0 : Fin 1) k) (ix1 k)
      (fun a => match a with | ⟨0, _⟩ => rfl),
    broadcastInDim_apply ![] _ _ (ix2 r k) ix0 (fun a => a.elim0)]
  show max _ (Ideal.ofBits .f32 0x00000000#32) * _ = _
  rw [Ideal.ofBits_zero_f32]

/-- The body's loads and its store go through the whole staging buffers: offsets zero on both axes. -/
theorem hz : (![0, 0] : Fin 2 → Nat) = fun _ => 0 := funext fun a => match a with | ⟨0, _⟩ => rfl | ⟨1, _⟩ => rfl

/-- The printed index maps over the ten points: the feature blocks and the output blocks move down the rows with the
    point, the bias row and the weight matrix stay whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the feature block at point `t` is row `10000 t + p` of the aggregated features. -/
theorem agg_blk (c : Dev nD) (t : Fin cfg2.N) (p : Fin 10000) (k : Fin 128) (r : Fin 100000) (hr : r.val = 10000 * t.val + p.val) :
    (iblk2 V c 0 t : S10000x128.Idx → EReal) (ix2 p k) = (V c main_v62 : S100000x128.Idx → EReal) (ix2 r k) := by
  obtain ⟨e0, e1, -⟩ := idx_facts t
  unfold iblk2
  rw [View.read_apply]
  show V c main_v62 _ = V c main_v62 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 128 + 1 * k.val = k.val; rw [e1]; omega

/-- The bias block at every point is the whole bias row, so its entries are the bias vector's. -/
theorem bias_blk (c : Dev nD) (bvec : Cert.Spec.Vec128 Ideal)
    (hb : ∀ k : Fin 128, V c main_v50 (ix2 (0 : Fin 1) k) = bvec (ix1 k)) (t : Fin cfg2.N) (k : Fin 128) :
    (iblk2 V c 1 t : S1x128.Idx → EReal) (ix2 (0 : Fin 1) k) = bvec (ix1 k) := by
  obtain ⟨-, -, e0, e1, -⟩ := idx_facts t
  refine Eq.trans ?_ (hb k)
  unfold iblk2
  rw [View.read_apply]
  show V c main_v50 _ = V c main_v50 _
  congr 1
  funext a
  apply Fin.ext
  match a with
  | ⟨0, _⟩ => show win2_1.index t (0 : Fin 2) * 1 + 1 * 0 = 0; rw [e0]
  | ⟨1, _⟩ => show win2_1.index t (1 : Fin 2) * 128 + 1 * k.val = k.val; rw [e1]; omega

/-- The weight block at every point is the whole weight matrix. -/
theorem w_blk (c : Dev nD) (t : Fin cfg2.N) (k q : Fin 128) :
    (iblk2 V c 2 t : S128x128.Idx → EReal) (ix2 k q) = (V c main_v64 : S128x128.Idx → EReal) (ix2 k q) := by
  obtain ⟨-, -, -, -, e0, e1, -⟩ := idx_facts t
  unfold iblk2
  rw [View.read_apply]
  show V c main_v64 _ = V c main_v64 _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- What point `t` writes back is block `t` of the layer applied to the arrays the region was entered with: the one
    store leaves the body's arithmetic of the three loaded blocks, entry `(p, q)` of the block sits at row `10000 t + p`
    of the array, and there both sides are the same sum over the features. -/
theorem flushed_eq (c : Dev nD) (bvec : Cert.Spec.Vec128 Ideal)
    (hb : ∀ k : Fin 128, V c main_v50 (ix2 (0 : Fin 1) k) = bvec (ix1 k)) (t : Fin cfg2.N) :
    (dat2 V c).flushed 3 t
      = ((cfg2.win 3).blk t).view.read (Elt Ideal) (Cert.Spec.layer (F := Ideal) (V c main_v62) bvec (V c main_v64)) := by
  have hN : cfg2.N = 10 := N_2
  show (cfg2.win 3).cut (grid2.coords t) ((dat2 V c).after 3 t) = _
  rw [after2_3]
  unfold out2_3
  rw [View.canon_unit_zero hz]
  simp only [View.ld_unit_zero (S := S10000x128) hz, View.ld_unit_zero (S := S1x128) hz, View.ld_unit_zero (S := S128x128) hz]
  funext j
  obtain ⟨p, q, rfl⟩ : ∃ (p : Fin 10000) (q : Fin 128), j = ix2 p q := ⟨j 0, j 1, eq_ix2 (n0 := 10000) (n1 := 128) j⟩
  have hp : p.val < 10000 := p.isLt
  have ht : t.val < 10 := hN ▸ t.isLt
  obtain ⟨-, -, -, -, -, -, e0, e1⟩ := idx_facts t
  have hemb : ((cfg2.win 3).blk t).view.emb (ix2 p q) = (ix2 (⟨10000 * t.val + p.val, by omega⟩ : Fin 100000) q : S100000x128.Idx) := by
    funext a
    apply Fin.ext
    match a with
    | ⟨0, _⟩ => show win2_3.index t (0 : Fin 2) * 10000 + 1 * p.val = 10000 * t.val + p.val; rw [e0]; omega
    | ⟨1, _⟩ => show win2_3.index t (1 : Fin 2) * 128 + 1 * q.val = q.val; rw [e1]; omega
  rw [View.read_apply, hemb]
  refine (pay_apply (iblk2 V c 0 t) (iblk2 V c 1 t) (iblk2 V c 2 t) p q).trans ?_
  refine Eq.trans ?_ (layer_apply (V c main_v62) bvec (V c main_v64) ⟨10000 * t.val + p.val, by omega⟩ q).symm
  refine Finset.sum_congr rfl fun k _ => ?_
  rw [agg_blk V c t p k ⟨10000 * t.val + p.val, by omega⟩ rfl, bias_blk V c bvec hb t k, w_blk V c t k q]

/-- An index of the array is in point `t`'s block iff each coordinate is in the block's range on its axis. -/
theorem mem_blk (t : Fin cfg2.N) (i : S100000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v65).slice (win2_3.rect t)).set ↔ _
  rw [View.set_slice_whole, Rect.mem_set_unit]
  exact Iff.rfl

/-- Every row of the array lies in the block of the point that its row number divided by 10000 names, and every point
    writes its block back. -/
theorem cover (i : S100000x128.Idx) : ∃ t : Fin cfg2.N, (cfg2.win 3).flush t = true ∧ i ∈ ((cfg2.win 3).blk t).view.set := by
  have hN : cfg2.N = 10 := N_2
  have hi0 : (i 0).val < 100000 := (i 0).isLt
  have hi1 : (i 1).val < 128 := (i 1).isLt
  refine ⟨⟨(i 0).val / 10000, by omega⟩, flush2_3 _, ?_⟩
  rw [mem_blk]
  obtain ⟨-, -, -, -, -, -, e0, e1⟩ := idx_facts ⟨(i 0).val / 10000, by omega⟩
  intro a
  match a with
  | ⟨0, _⟩ =>
    show win2_3.index _ (0 : Fin 2) * 10000 ≤ (i 0).val ∧ (i 0).val < win2_3.index _ (0 : Fin 2) * 10000 + 10000
    rw [e0]; show (i 0).val / 10000 * 10000 ≤ (i 0).val ∧ (i 0).val < (i 0).val / 10000 * 10000 + 10000; omega
  | ⟨1, _⟩ =>
    show win2_3.index _ (1 : Fin 2) * 128 ≤ (i 1).val ∧ (i 1).val < win2_3.index _ (1 : Fin 2) * 128 + 128
    rw [e1]; omega

/-- After the third region its output array holds the layer applied to the aggregated features it was entered with. -/
theorem arr (c : Dev nD) (bvec : Cert.Spec.Vec128 Ideal)
    (hb : ∀ k : Fin 128, V c main_v50 (ix2 (0 : Fin 1) k) = bvec (ix1 k)) :
    (dat2 V c).arrAt 3 cfg2.N = Cert.Spec.layer (F := Ideal) (V c main_v62) bvec (V c main_v64) :=
  (dat2 V c).arrAt_eq_of_cover 3 (Cert.Spec.layer (F := Ideal) (V c main_v62) bvec (V c main_v64))
    (fun t _ => flushed_eq V c bvec hb t) cover

end Cert.KernelIdeal.Region2

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.LibCells.lean ====
/-
  Host scatters and gathers whose every update (or result) element is ONE scalar placed by index words, read at an
  index; and two columns of words joined side by side, read at an index.

    • A table of `N` entries and an `M × 1` column of index words, one scalar update per word: the accumulating scatter
      leaves at entry `u` its old value plus the sum of the updates whose word, read signed, is `u` (an update whose
      word names no entry is dropped).
    • A table of `N` rows and `C` columns and an `M × 2` array of index words (row word, column word), one scalar update
      per pair: the accumulating scatter leaves at cell `(u, v)` its old value plus the sum of the updates whose two
      words, read signed, are `u` and `v`.
    • The gather by such an `M × 2` array reads, at `e`, the table at the two words of `e`, each read signed and clamped
      into the table.
    • Two `M × 1` columns joined along the second axis: entry `(e, 0)` is the first column's, `(e, 1)` the second's.
  Nothing here depends on the sizes.
-/
import Idealize.ShloMosaic.PureOps.Ideal
import Idealize.ShloMosaic.PureOps.ShapeOps
import Idealize.ShloMosaic.PureOps.Contract
import Idealize.ShloMosaic.Lib.ValueIdx
import Idealize.ShloMosaic.Lib.Pipeline.Value

noncomputable section

namespace Cert.LibCells

open Idealize.ShloMosaic Idealize.ShloMosaic.ValueIdx
open scoped BigOperators

/-! ## Where an update lands, for any dimension numbers -/

/-- An update index lands on element `i` exactly when, on every operand axis, its start plus its window coordinate is
    `i`'s coordinate: the sum is then inside the operand because `i` is, and the landing index is read off it. -/
theorem resultIdx?_eq_some_iff {s si su : Shape} {w : Nat} (d : ScatterDims s si su) (idx : IVec si w) (jj : su.Idx)
    (i : s.Idx) :
    d.resultIdx? jj idx = some i ↔ ∀ a, d.start jj idx a + (d.window jj a : ℤ) = ((i a).val : ℤ) := by
  unfold ScatterDims.resultIdx?
  constructor
  · intro h a
    split at h
    · rename_i hin
      have hcoord : (d.start jj idx a + (d.window jj a : ℤ)).toNat = (i a).val :=
        congrArg (fun f => (f a).val) (Option.some.inj h)
      have hpos := (hin a).1
      omega
    · exact absurd h (by simp)
  · intro h
    have hin : ∀ a, 0 ≤ d.start jj idx a + (d.window jj a : ℤ)
        ∧ d.start jj idx a + (d.window jj a : ℤ) < (s.size a : ℤ) := by
      intro a
      have hlt := (i a).isLt
      rw [h a]
      constructor <;> omega
    rw [dif_pos hin]
    refine congrArg some (funext fun a => Fin.ext ?_)
    show (d.start jj idx a + (d.window jj a : ℤ)).toNat = (i a).val
    rw [h a]
    simp

/-- A sum over the rank-one indices below `M` that satisfy `p` is the sum over the positions `e < M` whose index
    `ix1 e` satisfies it: an index of rank one is its one coordinate. -/
theorem sum_filter_ix1 {M : Nat} {β : Type} [AddCommMonoid β] (p : (⟨1, ![M]⟩ : Shape).Idx → Prop) [DecidablePred p]
    (q : Fin M → Prop) [DecidablePred q] (hpq : ∀ e, p (ix1 e) ↔ q e) (f : (⟨1, ![M]⟩ : Shape).Idx → β) :
    ∑ jj ∈ Finset.univ.filter p, f jj = ∑ e ∈ Finset.univ.filter q, f (ix1 e) := by
  -- an index satisfies `p` exactly when its coordinate satisfies `q`
  have hp : ∀ jj : (⟨1, ![M]⟩ : Shape).Idx, p jj ↔ q (jj 0) := fun jj =>
    (iff_of_eq (congrArg p (eq_ix1 jj))).trans (hpq (jj 0))
  refine Finset.sum_nbij' (fun jj => (jj 0 : Fin M)) (fun e => ix1 e) ?_ ?_ ?_ ?_ ?_
  · intro jj hjj
    exact Finset.mem_filter.mpr ⟨Finset.mem_univ _, (hp jj).mp (Finset.mem_filter.mp hjj).2⟩
  · intro e he
    exact Finset.mem_filter.mpr ⟨Finset.mem_univ _, (hpq e).mpr (Finset.mem_filter.mp he).2⟩
  · intro jj _
    exact (eq_ix1 jj).symm
  · intro e _
    rfl
  · intro jj _
    exact congrArg f (eq_ix1 jj)

/-! ## One word per update: a table of entries -/

section Scatter1

variable {N M w : Nat}

/-- With the table's one axis inserted and named by the one word of a row: the start of update `jj` is the word of row
    `jj`, read signed, and its window coordinate is zero. -/
theorem start_window1 (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx) :
    d.start jj idx 0 = (idx (ix2 (n0 := M) (n1 := 1) (jj 0) 0)).toInt ∧ d.window jj 0 = 0 := by
  cases d with
  | mk uw iw sd iv wf =>
    obtain rfl : uw = [] := huw
    obtain rfl : iw = [0] := hiw
    obtain rfl : sd = [0] := hsd
    obtain rfl : iv = 1 := hivd
    constructor
    · unfold ScatterDims.start
      rw [dif_pos (List.mem_singleton.mpr rfl)]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 1) ∉ (List.finRange 1).filter (· ∉ [0]))

/-- Update `jj` lands on entry `i` exactly when its word, read signed, is `i`'s position. -/
theorem lands1_iff (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx)
    (i : (⟨1, ![N]⟩ : Shape).Idx) :
    d.resultIdx? jj idx = some i ↔ (idx (ix2 (n0 := M) (n1 := 1) (jj 0) 0)).toInt = ((i 0).val : ℤ) := by
  obtain ⟨hs, hw⟩ := start_window1 d huw hiw hsd hivd idx jj
  rw [resultIdx?_eq_some_iff]
  constructor
  · intro h
    have h0 := h 0
    rw [hs, hw] at h0
    simpa using h0
  · intro h a
    match a with
    | ⟨0, _⟩ =>
      show d.start jj idx 0 + (d.window jj 0 : ℤ) = ((i 0).val : ℤ)
      rw [hs, hw, h]
      simp

end Scatter1

/-- The accumulating scatter of scalars into a table of `N` entries by an `M × 1` column of words. -/
theorem scatterAdd1_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ e ∈ Finset.univ.filter (fun e : Fin M => (idx (ix2 e (0 : Fin 1))).toInt = (u.val : ℤ)),
          upd (ix1 e) := by
  show Ideal.hostScatterAdd d x idx upd (ix1 u) = _
  unfold Ideal.hostScatterAdd
  refine congrArg (x (ix1 u) + ·) ?_
  exact sum_filter_ix1 _ _ (fun e => lands1_iff d huw hiw hsd hivd idx (ix1 e) (ix1 u)) upd

/-! ## Two words per update: a table of cells -/

section Scatter2

variable {N C M w : Nat}

/-- With both of the table's axes inserted, the row axis named by a pair's first word and the column axis by its
    second: the starts of update `jj` are the two words of row `jj`, read signed, and both window coordinates are
    zero. -/
theorem start_window2 (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) :
    d.start jj idx 0 = (idx (ix2 (n0 := M) (n1 := 2) (jj 0) 0)).toInt
      ∧ d.start jj idx 1 = (idx (ix2 (n0 := M) (n1 := 2) (jj 0) 1)).toInt
      ∧ d.window jj 0 = 0 ∧ d.window jj 1 = 0 := by
  cases d with
  | mk uw iw sd iv wf =>
    obtain rfl : uw = [] := huw
    obtain rfl : iw = [0, 1] := hiw
    obtain rfl : sd = [0, 1] := hsd
    obtain rfl : iv = 1 := hivd
    refine ⟨?_, ?_, ?_, ?_⟩
    · unfold ScatterDims.start
      rw [dif_pos (by decide : (0 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.start
      rw [dif_pos (by decide : (1 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 2) ∉ (List.finRange 2).filter (· ∉ [(0 : Fin 2), 1]))
    · unfold ScatterDims.window
      exact dif_neg (by decide : (1 : Fin 2) ∉ (List.finRange 2).filter (· ∉ [(0 : Fin 2), 1]))

/-- Update `jj` lands on cell `i` exactly when its two words, read signed, are `i`'s row and column. -/
theorem lands2_iff (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) (i : (⟨2, ![N, C]⟩ : Shape).Idx) :
    d.resultIdx? jj idx = some i
      ↔ (idx (ix2 (n0 := M) (n1 := 2) (jj 0) 0)).toInt = ((i 0).val : ℤ)
        ∧ (idx (ix2 (n0 := M) (n1 := 2) (jj 0) 1)).toInt = ((i 1).val : ℤ) := by
  obtain ⟨hs0, hs1, hw0, hw1⟩ := start_window2 d huw hiw hsd hivd idx jj
  rw [resultIdx?_eq_some_iff]
  constructor
  · intro h
    have h0 := h 0
    have h1 := h 1
    rw [hs0, hw0] at h0
    rw [hs1, hw1] at h1
    exact ⟨by simpa using h0, by simpa using h1⟩
  · rintro ⟨h0, h1⟩ a
    match a with
    | ⟨0, _⟩ =>
      show d.start jj idx 0 + (d.window jj 0 : ℤ) = ((i 0).val : ℤ)
      rw [hs0, hw0, h0]
      simp
    | ⟨1, _⟩ =>
      show d.start jj idx 1 + (d.window jj 1 : ℤ) = ((i 1).val : ℤ)
      rw [hs1, hw1, h1]
      simp

end Scatter2

/-- The accumulating scatter of scalars into a table of `N × C` cells by an `M × 2` array of (row, column) words. -/
theorem scatterAdd2_apply {N C M w : Nat} {φ : FTy} (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (x : FVec Ideal ⟨2, ![N, C]⟩ φ) (idx : IVec ⟨2, ![M, 2]⟩ w) (upd : FVec Ideal ⟨1, ![M]⟩ φ) (u : Fin N) (v : Fin C) :
    Host.scatterAdd (F := Ideal) d x idx upd (ix2 u v)
      = x (ix2 u v) + ∑ e ∈ Finset.univ.filter (fun e : Fin M =>
            (idx (ix2 e (0 : Fin 2))).toInt = (u.val : ℤ) ∧ (idx (ix2 e (1 : Fin 2))).toInt = (v.val : ℤ)),
          upd (ix1 e) := by
  show Ideal.hostScatterAdd d x idx upd (ix2 u v) = _
  unfold Ideal.hostScatterAdd
  refine congrArg (x (ix2 u v) + ·) ?_
  exact sum_filter_ix1 _ _ (fun e => lands2_iff d huw hiw hsd hivd idx (ix1 e) (ix2 u v)) upd

/-! ## The gather by two words -/

/-- The gather of scalars from a table of `N × C` cells by an `M × 2` array of (row, column) words: each word read
    signed and clamped into the table. -/
theorem gather2_apply {α : Type} {N C M w : Nat} (d : GatherDims ⟨2, ![N, C]⟩ ⟨2, ![M, 2]⟩ ⟨1, ![M]⟩)
    (hoff : d.offsetDims = []) (hcoll : d.collapsedSliceDims = [0, 1]) (hob : d.operandBatchingDims = [])
    (hsim : d.startIndexMap = [0, 1]) (hivd : d.indexVectorDim = 1)
    (x : (⟨2, ![N, C]⟩ : Shape).Idx → α) (idx : IVec ⟨2, ![M, 2]⟩ w) (e : Fin M) (hN : 0 < N) (hC : 0 < C) :
    Host.gather d x idx (ix1 e)
      = x (ix2 ⟨min (idx (ix2 e (0 : Fin 2))).toInt.toNat (N - 1), by omega⟩
               ⟨min (idx (ix2 e (1 : Fin 2))).toInt.toNat (C - 1), by omega⟩) := by
  -- both axes are collapsed, so the slice taken along each is one element
  have hsl0 : d.sliceSizes 0 = 1 := d.slice_collapsed 0 (by rw [hcoll]; exact List.mem_cons.mpr (Or.inl rfl))
  have hsl1 : d.sliceSizes 1 = 1 :=
    d.slice_collapsed 1 (by rw [hcoll]; exact List.mem_cons.mpr (Or.inr (List.mem_singleton.mpr rfl)))
  unfold Host.gather
  refine congrArg x ?_
  cases d with
  | mk od cd ob sb sm iv ss wf =>
    obtain rfl : od = [] := hoff
    obtain rfl : cd = [0, 1] := hcoll
    obtain rfl : ob = [] := hob
    obtain rfl : sm = [0, 1] := hsim
    obtain rfl : iv = 1 := hivd
    replace hsl0 : ss 0 = 1 := hsl0
    replace hsl1 : ss 1 = 1 := hsl1
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 2))).toInt.toNat (N - 1)
      rw [GatherDims.batchCoord_eq_zero _ _ _ List.not_mem_nil,
        GatherDims.offCoord_eq_zero _ _ _
          (by decide : (0 : Fin 2) ∉ (List.finRange 2).filter (· ∉ [(0 : Fin 2), 1] ++ []))]
      simp only [Nat.add_zero]
      unfold GatherDims.start
      rw [dif_pos (by decide : (0 : Fin 2) ∈ [(0 : Fin 2), 1])]
      show min (idx _).toInt.toNat (N - ss 0) = _
      rw [hsl0]
      refine congrArg (fun k => min (idx k).toInt.toNat (N - 1)) (funext fun b => ?_)
      match b with
      | ⟨0, _⟩ => exact Fin.ext rfl
      | ⟨1, _⟩ => exact Fin.ext rfl
    | ⟨1, _⟩ =>
      apply Fin.ext
      show GatherDims.start _ (ix1 e) idx 1 + GatherDims.batchCoord _ (ix1 e) 1 + GatherDims.offCoord _ (ix1 e) 1
        = min (idx (ix2 e (1 : Fin 2))).toInt.toNat (C - 1)
      rw [GatherDims.batchCoord_eq_zero _ _ _ List.not_mem_nil,
        GatherDims.offCoord_eq_zero _ _ _
          (by decide : (1 : Fin 2) ∉ (List.finRange 2).filter (· ∉ [(0 : Fin 2), 1] ++ []))]
      simp only [Nat.add_zero]
      unfold GatherDims.start
      rw [dif_pos (by decide : (1 : Fin 2) ∈ [(0 : Fin 2), 1])]
      show min (idx _).toInt.toNat (C - ss 1) = _
      rw [hsl1]
      refine congrArg (fun k => min (idx k).toInt.toNat (C - 1)) (funext fun b => ?_)
      match b with
      | ⟨0, _⟩ => exact Fin.ext rfl
      | ⟨1, _⟩ => exact Fin.ext rfl

/-! ## Two columns side by side -/

/-- Two `M × 1` columns joined along the second axis, at the first column. -/
theorem concat_cols_apply0 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) := by
  -- position 0 along the joined axis is below the first column's extent 1: the first column, same coordinates
  refine concatenate_pair_apply_left 1 a b h (ix2 e (0 : Fin 2)) rfl (ix2 e (0 : Fin 1)) ?_
  intro c
  match c with
  | ⟨0, _⟩ => rfl
  | ⟨1, _⟩ => rfl

/-- Two `M × 1` columns joined along the second axis, at the second column. -/
theorem concat_cols_apply1 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) := by
  -- position 1 along the joined axis is past the first column's extent 1: the second column at 1 − 1 = 0
  refine concatenate_pair_apply_right 1 a b h (ix2 e (1 : Fin 2)) rfl rfl (ix2 e (0 : Fin 1)) ?_ ?_
  · intro c hc
    match c with
    | ⟨0, _⟩ => rfl
    | ⟨1, _⟩ => exact absurd rfl hc
  · rfl

end Cert.LibCells

end
-- ==== Proof.R3.lean ====
import proofs.«427432_j47828755808670_1_alg».proof.Proof.Gen.KernelIdeal.Frame
import proofs.«427432_j47828755808670_1_alg».proof.Proof.Spec
import proofs.«427432_j47828755808670_1_alg».proof.Proof.LibPlainDot
import proofs.«427432_j47828755808670_1_alg».proof.Proof.LibBlockSum
import proofs.«427432_j47828755808670_1_alg».proof.Proof.LibScatterGather2
import proofs.«427432_j47828755808670_1_alg».proof.Proof.LibCells
import Idealize.ShloMosaic.Lib.Pipeline.Value
import Idealize.ShloMosaic.Lib.IdealHost
set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

/-!
  The pooling region runs over ten points; point `t` sees rows `10000·t … 10000·t + 9999` of the aggregated features and of
  the membership array, and the whole bias row. At the first point it zeroes both output blocks; at every point it adds into
  the first block the product (membership block)ᵀ · max(feature block + bias row, 0) and into the second the column sums of
  the membership block. Both blocks stay in place from point to point and are written back after the last one, so the two
  output arrays end as the sums over all ten points, that is over all 100000 nodes. With the membership array the indicator
  of "node `n`'s word is graph `g`'s number", the sum over all nodes of membership times a row is the sum over the graph's
  nodes of that row: the host's accumulating scatter into a zero table.
-/

section Pieces

open Idealize.ShloMosaic.Tactic

variable {F : FTy → Type} [FloatOps F]

/-- The zero offsets of a whole block, as the constant function. -/
theorem hz : (![0, 0] : Fin 2 → Nat) = fun _ => 0 := funext fun a => by fin_cases a <;> rfl

/-- At a later point the first output block is left holding its previous contents plus the point's product: the block's one
    covering store, whose operands are the whole input blocks and the block's previous contents. -/
theorem out_B_3 (c : Dev nD) (i : grid3.Coords) (a1 : Memref sig .tc .vmem S10000x128 .f32) (h1 : a1.IsWhole)
    (a2 : Memref sig .tc .vmem S1x128 .f32) (h2 : a2.IsWhole) (a3 : Memref sig .tc .vmem S10000x128 .bf16) (h3 : a3.IsWhole)
    (a4 : Memref sig .tc .vmem S128x128 .f32) (h4 : a4.IsWhole) (a5 : Memref sig .tc .vmem S1x128 .f32) (h5 : a5.IsWhole)
    (hc : ¬cond3_0 i) (x0 : Vec F S10000x128 .f32) (x1 : Vec F S1x128 .f32) (x2 : Vec F S10000x128 .bf16)
    (xo3 : Vec F S128x128 .f32) (xo4 : Vec F S1x128 .f32) :
    out3_B_3 c i a1 h1 a2 h2 a3 h3 a4 h4 a5 h5 hc x0 x1 x2 xo3 xo4 = k3_pay4 x0 x1 x2 xo3 := by
  unfold out3_B_3
  rw [View.read_writes_eq_canon _ _ _ (cover3_B_3 c i a1 h1 a2 h2 a3 h3 a4 h4 a5 h5 hc x0 x1 x2 xo3 xo4)]
  unfold kernelRun3_B
  dsimp only
  sl_unfold_words
  rw [View.canon_unit_zero hz]
  simp only [View.readAt_eq_ld, h1.read_unread, h2.read_unread, h3.read_unread, h4.read_unread,
    View.ld_unit_zero (S := S10000x128) hz, View.ld_unit_zero (S := S1x128) hz, View.ld_unit_zero (S := S128x128) hz]

/-- At a later point the second output block is left holding its previous contents plus the membership block's column sums. -/
theorem out_B_4 (c : Dev nD) (i : grid3.Coords) (a1 : Memref sig .tc .vmem S10000x128 .f32) (h1 : a1.IsWhole)
    (a2 : Memref sig .tc .vmem S1x128 .f32) (h2 : a2.IsWhole) (a3 : Memref sig .tc .vmem S10000x128 .bf16) (h3 : a3.IsWhole)
    (a4 : Memref sig .tc .vmem S128x128 .f32) (h4 : a4.IsWhole) (a5 : Memref sig .tc .vmem S1x128 .f32) (h5 : a5.IsWhole)
    (hc : ¬cond3_0 i) (x0 : Vec F S10000x128 .f32) (x1 : Vec F S1x128 .f32) (x2 : Vec F S10000x128 .bf16)
    (xo3 : Vec F S128x128 .f32) (xo4 : Vec F S1x128 .f32) :
    out3_B_4 c i a1 h1 a2 h2 a3 h3 a4 h4 a5 h5 hc x0 x1 x2 xo3 xo4 = k3_pay5 x2 xo4 := by
  unfold out3_B_4
  rw [View.read_writes_eq_canon _ _ _ (cover3_B_4 c i a1 h1 a2 h2 a3 h3 a4 h4 a5 h5 hc x0 x1 x2 xo3 xo4)]
  unfold kernelRun3_B
  dsimp only
  sl_unfold_words
  rw [View.canon_unit_zero hz]
  simp only [View.readAt_eq_ld, h3.read_unread, h5.read_unread,
    View.ld_unit_zero (S := S10000x128) hz, View.ld_unit_zero (S := S1x128) hz]

/-- At the first point the first output block is zeroed, read back, and left holding zero plus the point's product. -/
theorem out_A_3 (c : Dev nD) (i : grid3.Coords) (a1 : Memref sig .tc .vmem S10000x128 .f32) (h1 : a1.IsWhole)
    (a2 : Memref sig .tc .vmem S1x128 .f32) (h2 : a2.IsWhole) (a3 : Memref sig .tc .vmem S10000x128 .bf16) (h3 : a3.IsWhole)
    (a4 : Memref sig .tc .vmem S128x128 .f32) (h4 : a4.IsWhole) (a5 : Memref sig .tc .vmem S1x128 .f32) (h5 : a5.IsWhole)
    (hc : cond3_0 i) (x0 : Vec F S10000x128 .f32) (x1 : Vec F S1x128 .f32) (x2 : Vec F S10000x128 .bf16) :
    out3_A_3 c i a1 h1 a2 h2 a3 h3 a4 h4 a5 h5 hc x0 x1 x2 = k3_pay4 x0 x1 x2 (k3_pay1 (F := F)) := by
  unfold out3_A_3
  rw [View.read_writes_eq_canon _ _ _ (cover3_A_3 c i a1 h1 a2 h2 a3 h3 a4 h4 a5 h5 hc x0 x1 x2)]
  unfold kernelRun3_A
  dsimp only
  sl_unfold_words
  rw [View.canon_cons_unit_zero (S := S128x128) hz]
  simp only [View.readAt_eq_ld, h1.read_unread, h2.read_unread, h3.read_unread,
    View.readCov_unit_zero (S := S128x128) _ hz,
    View.ld_unit_zero (S := S10000x128) hz, View.ld_unit_zero (S := S1x128) hz]

/-- At the first point the second output block is zeroed, read back, and left holding zero plus the column sums. -/
theorem out_A_4 (c : Dev nD) (i : grid3.Coords) (a1 : Memref sig .tc .vmem S10000x128 .f32) (h1 : a1.IsWhole)
    (a2 : Memref sig .tc .vmem S1x128 .f32) (h2 : a2.IsWhole) (a3 : Memref sig .tc .vmem S10000x128 .bf16) (h3 : a3.IsWhole)
    (a4 : Memref sig .tc .vmem S128x128 .f32) (h4 : a4.IsWhole) (a5 : Memref sig .tc .vmem S1x128 .f32) (h5 : a5.IsWhole)
    (hc : cond3_0 i) (x0 : Vec F S10000x128 .f32) (x1 : Vec F S1x128 .f32) (x2 : Vec F S10000x128 .bf16) :
    out3_A_4 c i a1 h1 a2 h2 a3 h3 a4 h4 a5 h5 hc x0 x1 x2 = k3_pay5 x2 (k3_pay2 (F := F)) := by
  unfold out3_A_4
  rw [View.read_writes_eq_canon _ _ _ (cover3_A_4 c i a1 h1 a2 h2 a3 h3 a4 h4 a5 h5 hc x0 x1 x2)]
  unfold kernelRun3_A
  dsimp only
  sl_unfold_words
  rw [View.canon_cons_unit_zero (S := S1x128) hz]
  simp only [View.readAt_eq_ld, h3.read_unread,
    View.readCov_unit_zero (S := S1x128) _ hz,
    View.ld_unit_zero (S := S10000x128) hz]

end Pieces

section BlockArithmetic

open scoped BigOperators

/-- The pooling product's dimension numbers: both operands are contracted over their rows, so the result's entry `(g, j)`
    pairs column `g` of the left operand with column `j` of the right one. -/
abbrev poolDot : DotDims S10000x128 S10000x128 S128x128 := dot_S10000x128_S10000x128_S128x128_0_0_1_1_n_n

/-- The contraction runs over one axis … -/
theorem poolDot_rank : poolDot.contr.rank = 1 := rfl
/-- … of the block's 10000 rows. -/
theorem poolDot_size : poolDot.contr.size ⟨0, by rw [poolDot_rank]; exact Nat.one_pos⟩ = 10000 := rfl

/-- At result index `(g, j)` and row `k` the left operand is read at `(k, g)`. -/
theorem poolDot_lhs (g j : Fin 128) (k : Fin 10000) :
    poolDot.lhsIdx (ix2 g j) ((contrEquiv1 poolDot 10000 poolDot_rank poolDot_size).symm k) = ix2 k g := by
  funext a
  apply Fin.ext
  match a with
  | ⟨0, _⟩ => rfl
  | ⟨1, _⟩ => rfl

/-- At result index `(g, j)` and row `k` the right operand is read at `(k, j)`. -/
theorem poolDot_rhs (g j : Fin 128) (k : Fin 10000) :
    poolDot.rhsIdx (ix2 g j) ((contrEquiv1 poolDot 10000 poolDot_rank poolDot_size).symm k) = ix2 k j := by
  funext a
  apply Fin.ext
  match a with
  | ⟨0, _⟩ => rfl
  | ⟨1, _⟩ => rfl

/-- The block product into the zero accumulator, at `(g, j)`: the sum over the block's rows `k` of `lhs (k, g) · rhs (k, j)`. -/
theorem poolDot_apply (lhs rhs : FVec Ideal S10000x128 .bf16) (g j : Fin 128) :
    FloatOps.matmul poolDot none lhs rhs (constant S128x128 .f32 0x00000000#32) (ix2 g j)
      = ∑ k : Fin 10000, lhs (ix2 k g) * rhs (ix2 k j) := by
  rw [Ideal.matmul_constant_zero_apply, ← Equiv.sum_comp (contrEquiv1 poolDot 10000 poolDot_rank poolDot_size).symm]
  refine Finset.sum_congr rfl fun k _ => ?_
  rw [poolDot_lhs, poolDot_rhs]

/-- The bias row laid along every row of a block reads, at `(k, j)`, the row's entry `j`. -/
theorem biasBlock_apply (x1 : FVec Ideal S1x128 .f32) (k : Fin 10000) (j : Fin 128) :
    broadcastTo S10000x128 x1 broadcasts_S1x128_S10000x128 (ix2 k j) = x1 (ix2 (0 : Fin 1) j) := by
  refine broadcastTo_apply x1 broadcasts_S1x128_S10000x128 (ix2 k j) (ix2 (0 : Fin 1) j) fun a => ?_
  match a with
  | ⟨0, _⟩ => rfl
  | ⟨1, _⟩ => rfl

/-- What a point stores in the first output block, at `(g, j)`: the block's previous entry plus the sum over the point's
    rows `k` of `membership (k, g) · max (feature (k, j) + bias j, 0)` (over the extended reals the two format changes are
    the identity). -/
theorem pay4_apply (x0 : FVec Ideal S10000x128 .f32) (x1 : FVec Ideal S1x128 .f32) (x2 : FVec Ideal S10000x128 .bf16)
    (xo : FVec Ideal S128x128 .f32) (g j : Fin 128) :
    k3_pay4 (F := Ideal) x0 x1 x2 xo (ix2 g j)
      = xo (ix2 g j) + ∑ k : Fin 10000, x2 (ix2 k g) * max (x0 (ix2 k j) + x1 (ix2 (0 : Fin 1) j)) 0 := by
  unfold k3_pay4 k3_pay3
  simp only [shapeCast_self]
  refine (addf_apply _ _ _).trans (congrArg (xo (ix2 g j) + ·) ?_)
  refine (poolDot_apply _ _ g j).trans (Finset.sum_congr rfl fun k _ => congrArg (x2 (ix2 k g) * ·) ?_)
  show max (x0 (ix2 k j) + broadcastTo S10000x128 x1 broadcasts_S1x128_S10000x128 (ix2 k j)) (Ideal.ofBits .f32 0x00000000#32) = _
  rw [biasBlock_apply, Ideal.ofBits_zero_f32]

/-- The block the first point stores into the first output before accumulating is zero everywhere. -/
theorem pay1_apply (i : S128x128.Idx) : k3_pay1 (F := Ideal) i = 0 := by
  unfold k3_pay1
  exact Ideal.ofBits_zero_f32

/-- The block the first point stores into the second output before accumulating is zero everywhere. -/
theorem pay2_apply (i : S1x128.Idx) : k3_pay2 (F := Ideal) i = 0 := by
  unfold k3_pay2
  exact Ideal.ofBits_zero_f32

/-- The sum of a block over its rows, laid out as one row, reads at `(0, g)` the sum of column `g`. -/
theorem colSum_apply (x2 : FVec Ideal S10000x128 .f32) (hacc : (0x00000000#32 : BitVec 32) = 0x00000000#32) (g : Fin 128) :
    shapeCast S1x128 (multiReduction .add [0] S128 x2 0x00000000#32 reduces_S10000x128_S128 (.inl rfl) hacc) shapeCasts_S128_S1x128 (ix2 (0 : Fin 1) g)
      = ∑ k : Fin 10000, x2 (ix2 k g) := by
  refine (shapeCast_addUnit_apply ![128] _ shapeCasts_S128_S1x128 (ix2 (0 : Fin 1) g)).trans ?_
  refine (Ideal.multiReduction_add_single x2 0x00000000#32 reduces_S10000x128_S128 (.inl rfl) hacc _).trans ?_
  refine Finset.sum_congr rfl fun k _ => congrArg x2 ?_
  funext a
  apply Fin.ext
  match a with
  | ⟨0, _⟩ => rfl
  | ⟨1, _⟩ => rfl

/-- What a point stores in the second output block, at `(0, g)`: the block's previous entry plus the sum over the point's
    rows of the membership block's column `g`. -/
theorem pay5_apply (x2 : FVec Ideal S10000x128 .bf16) (xo : FVec Ideal S1x128 .f32) (g : Fin 128) :
    k3_pay5 (F := Ideal) x2 xo (ix2 (0 : Fin 1) g) = xo (ix2 (0 : Fin 1) g) + ∑ k : Fin 10000, x2 (ix2 k g) := by
  unfold k3_pay5 k3_pay3
  simp only [shapeCast_self]
  refine (addf_apply _ _ _).trans (congrArg (xo (ix2 (0 : Fin 1) g) + ·) ?_)
  exact colSum_apply x2 rfl g

end BlockArithmetic

section HostSide

open scoped BigOperators

/-- A word read as a signed integer is a graph's number (below 128) exactly when it is that number's word. -/
theorem word_iff (w : BitVec 32) (g : Fin 128) : w.toInt = (g.val : ℤ) ↔ w = BitVec.ofNat 32 g.val := by
  have hg : g.val < 128 := g.isLt
  constructor
  · intro h
    rw [← BitVec.ofInt_toInt (x := w), h, BitVec.ofInt_natCast]
  · rintro rfl
    rw [BitVec.toInt_eq_toNat_of_lt (by rw [BitVec.toNat_ofNat]; omega), BitVec.toNat_ofNat]
    congr 1
    omega

/-- The words laid out as a column read, at row `e`, node `e`'s word. -/
theorem words_apply (x2 : (⟨Cert.ReferenceIdeal.S100000, .i32⟩ : BufTy).Contents (Elt Ideal)) (e : Fin 100000) :
    broadcastInDim Cert.ReferenceIdeal.S100000x1 ![0] Cert.ReferenceIdeal.Gen.bcast_S100000_S100000x1_0 x2 (ix2 e (0 : Fin 1)) = x2 (ix1 e) := by
  refine broadcastInDim_apply _ _ x2 (ix2 e (0 : Fin 1)) (ix1 e) fun a => ?_
  match a with
  | ⟨0, _⟩ => rfl

/-- The clamped features at `(e, j)`: `max (aggregated (e, j) + bias j, 0)`. -/
theorem act_apply (agg : Cert.Spec.Nodes Ideal) (b : Cert.Spec.Vec128 Ideal) (e : Fin 100000) (j : Fin 128) :
    Cert.Spec.act (F := Ideal) agg b (ix2 e j) = max (agg (ix2 e j) + b (ix1 j)) 0 := by
  unfold Cert.Spec.act Cert.Spec.biasRows
  refine (maximumf_apply _ _ _).trans (congrArg₂ max ((addf_apply _ _ _).trans (congrArg (agg (ix2 e j) + ·) ?_)) ?_)
  · refine (broadcastInDim_apply _ _ _ (ix2 e j) (ix2 (0 : Fin 1) j) fun a => ?_).trans ?_
    · match a with
      | ⟨0, _⟩ => rfl
      | ⟨1, _⟩ => rfl
    · refine broadcastInDim_apply _ _ b (ix2 (0 : Fin 1) j) (ix1 j) fun a => ?_
      match a with
      | ⟨0, _⟩ => rfl
  · refine (broadcastInDim_apply _ _ _ (ix2 e j) ix0 fun a => a.elim0).trans ?_
    exact Ideal.ofBits_zero_f32

/-- The pooled table at `(g, j)`: the zero table's entry plus column `j` of the rows whose word is graph `g`'s, that is
    the sum of those rows' entries. -/
theorem pool_apply (x2 : (⟨Cert.ReferenceIdeal.S100000, .i32⟩ : BufTy).Contents (Elt Ideal)) (h : Cert.Spec.Nodes Ideal) (g j : Fin 128) :
    Cert.Spec.pool (F := Ideal) x2 h (ix2 g j)
      = ∑ e ∈ Finset.univ.filter (fun e : Fin 100000 => x2 (ix1 e) = BitVec.ofNat 32 g.val), h (ix2 e j) := by
  unfold Cert.Spec.pool
  refine (Cert.LibScatterGather2.scatterAdd_apply (φ := .f32) _ rfl rfl rfl rfl _ _ h g j).trans ?_
  rw [show broadcastInDim Cert.ReferenceIdeal.S128x128 ![] Cert.ReferenceIdeal.Gen.bcast_S_S128x128 (constant (F := Ideal) Cert.ReferenceIdeal.S_ .f32 0x00000000#32) (ix2 g j) = (0 : EReal) from
    (broadcastInDim_apply _ _ _ (ix2 g j) ix0 fun a => a.elim0).trans Ideal.ofBits_zero_f32, zero_add]
  refine Finset.sum_congr (Finset.filter_congr fun e _ => ?_) fun _ _ => rfl
  rw [words_apply]
  exact word_iff _ g

/-- The count table at `g`: a one for every row whose word is graph `g`'s. -/
theorem cnt_apply (x2 : (⟨Cert.ReferenceIdeal.S100000, .i32⟩ : BufTy).Contents (Elt Ideal)) (g : Fin 128) :
    Cert.Spec.cnt (F := Ideal) x2 (ix1 g)
      = ∑ e ∈ Finset.univ.filter (fun e : Fin 100000 => x2 (ix1 e) = BitVec.ofNat 32 g.val), (1 : EReal) := by
  unfold Cert.Spec.cnt
  refine (Cert.LibCells.scatterAdd1_apply (φ := .f32) _ rfl rfl rfl rfl _ _ _ g).trans ?_
  rw [show broadcastInDim Cert.ReferenceIdeal.S128 ![] Cert.ReferenceIdeal.Gen.bcast_S_S128 (constant (F := Ideal) Cert.ReferenceIdeal.S_ .f32 0x00000000#32) (ix1 g) = (0 : EReal) from
    (broadcastInDim_apply _ _ _ (ix1 g) ix0 fun a => a.elim0).trans Ideal.ofBits_zero_f32, zero_add]
  refine Finset.sum_congr (Finset.filter_congr fun e _ => ?_) fun e _ => ?_
  · rw [words_apply]
    exact word_iff _ g
  · refine (broadcastInDim_apply _ _ _ (ix1 e) ix0 fun a => a.elim0).trans ?_
    exact Ideal.ofBits_one_f32

end HostSide

section Run

open scoped BigOperators

variable (V : (c : Dev nD) → (b : Ref sig .tc) → Buf (Elt Ideal) ((c : Thread nD τ).loc b))

/-- The three input blocks at a point, at their literal types. -/
abbrev aggBlk (c : Dev nD) (t : Fin cfg3.N) : FVec Ideal S10000x128 .f32 := iblk3 V c 0 t
abbrev biasBlk (c : Dev nD) (t : Fin cfg3.N) : FVec Ideal S1x128 .f32 := iblk3 V c 1 t
abbrev memBlk (c : Dev nD) (t : Fin cfg3.N) : FVec Ideal S10000x128 .bf16 := iblk3 V c 2 t

/-- The three arrays the region reads, at their literal types. -/
abbrev aggArr (c : Dev nD) : FVec Ideal S100000x128 .f32 := V c main_v79
abbrev biasArr (c : Dev nD) : FVec Ideal S1x128 .f32 := V c main_v67
abbrev memArr (c : Dev nD) : FVec Ideal S100000x128 .bf16 := V c main_v86

/-- After the first point the output blocks hold zero plus that point's product and column sums. -/
theorem step_A (c : Dev nD) (t : Fin cfg3.N) (h0 : t.val % 10 = 0) :
    outsAt3 V c t.val t.isLt
      = (k3_pay4 (F := Ideal) (aggBlk V c t) (biasBlk V c t) (memBlk V c t) (k3_pay1 (F := Ideal)),
         k3_pay5 (F := Ideal) (memBlk V c t) (k3_pay2 (F := Ideal))) := by
  rw [outsAt3_A V c t h0]
  exact Prod.ext
    (out_A_3 (F := Ideal) c (grid3.coords t) (ms3_0 t) (hs3_0 t) (ms3_1 t) (hs3_1 t) (ms3_2 t) (hs3_2 t) (ms3_3 t) (hs3_3 t)
      (ms3_4 t) (hs3_4 t) ((hcond3_0 t).mpr h0) (iblk3 V c 0 t) (iblk3 V c 1 t) (iblk3 V c 2 t))
    (out_A_4 (F := Ideal) c (grid3.coords t) (ms3_0 t) (hs3_0 t) (ms3_1 t) (hs3_1 t) (ms3_2 t) (hs3_2 t) (ms3_3 t) (hs3_3 t)
      (ms3_4 t) (hs3_4 t) ((hcond3_0 t).mpr h0) (iblk3 V c 0 t) (iblk3 V c 1 t) (iblk3 V c 2 t))

/-- After a later point the output blocks hold what the point before left plus this point's product and column sums. -/
theorem step_B (c : Dev nD) (t : Fin cfg3.N) (h0 : ¬t.val % 10 = 0) :
    outsAt3 V c t.val t.isLt
      = (k3_pay4 (F := Ideal) (aggBlk V c t) (biasBlk V c t) (memBlk V c t)
           (outsAt3 V c (t.val - 1) (Nat.lt_of_le_of_lt (Nat.sub_le _ _) t.isLt)).1,
         k3_pay5 (F := Ideal) (memBlk V c t) (outsAt3 V c (t.val - 1) (Nat.lt_of_le_of_lt (Nat.sub_le _ _) t.isLt)).2) := by
  rw [outsAt3_B V c t h0]
  exact Prod.ext
    (out_B_3 (F := Ideal) c (grid3.coords t) (ms3_0 t) (hs3_0 t) (ms3_1 t) (hs3_1 t) (ms3_2 t) (hs3_2 t) (ms3_3 t) (hs3_3 t)
      (ms3_4 t) (hs3_4 t) (fun h => h0 ((hcond3_0 t).mp h)) (iblk3 V c 0 t) (iblk3 V c 1 t) (iblk3 V c 2 t)
      (outsAt3 V c (t.val - 1) (Nat.lt_of_le_of_lt (Nat.sub_le _ _) t.isLt)).1
      (outsAt3 V c (t.val - 1) (Nat.lt_of_le_of_lt (Nat.sub_le _ _) t.isLt)).2)
    (out_B_4 (F := Ideal) c (grid3.coords t) (ms3_0 t) (hs3_0 t) (ms3_1 t) (hs3_1 t) (ms3_2 t) (hs3_2 t) (ms3_3 t) (hs3_3 t)
      (ms3_4 t) (hs3_4 t) (fun h => h0 ((hcond3_0 t).mp h)) (iblk3 V c 0 t) (iblk3 V c 1 t) (iblk3 V c 2 t)
      (outsAt3 V c (t.val - 1) (Nat.lt_of_le_of_lt (Nat.sub_le _ _) t.isLt)).1
      (outsAt3 V c (t.val - 1) (Nat.lt_of_le_of_lt (Nat.sub_le _ _) t.isLt)).2)

/-- What point `t` adds to entry `(g, j)` of the first output … -/
def poolTerm (c : Dev nD) (t : Fin cfg3.N) (g j : Fin 128) : EReal :=
  ∑ k : Fin 10000, memBlk V c t (ix2 k g) * max (aggBlk V c t (ix2 k j) + biasBlk V c t (ix2 (0 : Fin 1) j)) 0
/-- … and to entry `g` of the second. -/
def cntTerm (c : Dev nD) (t : Fin cfg3.N) (g : Fin 128) : EReal := ∑ k : Fin 10000, memBlk V c t (ix2 k g)

/-- After point `n` the output blocks hold the sums of the addends of points `0 … n`: by induction on the point, the
    first point starting from zero (`0 + x = x` for every extended real). -/
theorem outs_eq (c : Dev nD) : ∀ (n : ℕ) (h : n < cfg3.N),
    (∀ g j : Fin 128, (outsAt3 V c n h).1 (ix2 g j)
        = ∑ s : Fin (n + 1), poolTerm V c ⟨s.val, lt_of_le_of_lt (Nat.le_of_lt_succ s.isLt) h⟩ g j)
    ∧ (∀ g : Fin 128, (outsAt3 V c n h).2 (ix2 (0 : Fin 1) g)
        = ∑ s : Fin (n + 1), cntTerm V c ⟨s.val, lt_of_le_of_lt (Nat.le_of_lt_succ s.isLt) h⟩ g)
  | 0, h => by
    rw [step_A V c ⟨0, h⟩ rfl]
    refine ⟨fun g j => ?_, fun g => ?_⟩
    · refine (pay4_apply _ _ _ _ g j).trans ?_
      rw [pay1_apply, zero_add, Fin.sum_univ_one]
      rfl
    · refine (pay5_apply _ _ g).trans ?_
      rw [pay2_apply, zero_add, Fin.sum_univ_one]
      rfl
  | n + 1, h => by
    have hN : cfg3.N = 10 := N_3
    have hB : ¬(⟨n + 1, h⟩ : Fin cfg3.N).val % 10 = 0 := by dsimp only; omega
    obtain ⟨ih3, ih4⟩ := outs_eq c n (Nat.lt_of_succ_lt h)
    rw [step_B V c ⟨n + 1, h⟩ hB]
    refine ⟨fun g j => ?_, fun g => ?_⟩
    · refine (pay4_apply _ _ _ _ g j).trans ?_
      rw [Fin.sum_univ_castSucc (fun s : Fin (n + 1 + 1) => poolTerm V c ⟨s.val, lt_of_le_of_lt (Nat.le_of_lt_succ s.isLt) h⟩ g j)]
      exact congrArg₂ (· + ·) (ih3 g j) rfl
    · refine (pay5_apply _ _ g).trans ?_
      rw [Fin.sum_univ_castSucc (fun s : Fin (n + 1 + 1) => cntTerm V c ⟨s.val, lt_of_le_of_lt (Nat.le_of_lt_succ s.isLt) h⟩ g)]
      exact congrArg₂ (· + ·) (ih4 g) rfl

/-- The last point is point 9. -/
theorem last_lt : 9 < cfg3.N := by rw [show cfg3.N = 10 from N_3]; decide

/-- The block indices at point `t`: the feature and membership windows are at row block `t`, the bias window at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `k` of point `t`'s block is node `10000·t + k`, one of the 100000. -/
theorem node_lt (t : Fin cfg3.N) (k : Fin 10000) : 10000 * t.val + k.val < 100000 := by
  have hN : cfg3.N = 10 := N_3
  have := t.isLt
  omega

/-- The feature block of point `t` at `(k, j)` is the feature array at node `10000·t + k`, column `j`. -/
theorem aggBlk_apply (c : Dev nD) (t : Fin cfg3.N) (k : Fin 10000) (j : Fin 128) :
    aggBlk V c t (ix2 k j) = V c main_v79 (ix2 ⟨10000 * t.val + k.val, node_lt t k⟩ j) := by
  obtain ⟨e0, e1, -, -, -, -⟩ := idx_facts t
  unfold aggBlk iblk3
  rw [View.read_apply]
  show V c main_v79 _ = V c main_v79 _
  congr 1
  funext a
  apply Fin.ext
  match a with
  | ⟨0, _⟩ => show win3_0.index t 0 * 10000 + 1 * k.val = 10000 * t.val + k.val; rw [e0]; omega
  | ⟨1, _⟩ => show win3_0.index t 1 * 128 + 1 * j.val = j.val; rw [e1]; omega

/-- The membership block of point `t` at `(k, g)` is the membership array at node `10000·t + k`, graph `g`. -/
theorem memBlk_apply (c : Dev nD) (t : Fin cfg3.N) (k : Fin 10000) (g : Fin 128) :
    memBlk V c t (ix2 k g) = V c main_v86 (ix2 ⟨10000 * t.val + k.val, node_lt t k⟩ g) := by
  obtain ⟨-, -, -, -, e0, e1⟩ := idx_facts t
  unfold memBlk iblk3
  rw [View.read_apply]
  show V c main_v86 _ = V c main_v86 _
  congr 1
  funext a
  apply Fin.ext
  match a with
  | ⟨0, _⟩ => show win3_2.index t 0 * 10000 + 1 * k.val = 10000 * t.val + k.val; rw [e0]; omega
  | ⟨1, _⟩ => show win3_2.index t 1 * 128 + 1 * g.val = g.val; rw [e1]; omega

/-- The bias block is the bias row at every point. -/
theorem biasBlk_apply (c : Dev nD) (t : Fin cfg3.N) (j : Fin 128) :
    biasBlk V c t (ix2 (0 : Fin 1) j) = V c main_v67 (ix2 (0 : Fin 1) j) := by
  obtain ⟨-, -, e0, e1, -, -⟩ := idx_facts t
  unfold biasBlk iblk3
  rw [View.read_apply]
  show V c main_v67 _ = V c main_v67 _
  congr 1
  funext a
  apply Fin.ext
  match a with
  | ⟨0, _⟩ => show win3_1.index t 0 * 1 + 1 * 0 = 0; rw [e0]
  | ⟨1, _⟩ => show win3_1.index t 1 * 128 + 1 * j.val = j.val; rw [e1]; omega

/-- The one write-back of the first output, after the last point, writes what the block then holds: block (0, 0) of a
    [128,128] array read through zero offsets is the array. -/
theorem flushed3_eq (c : Dev nD) (t : Fin cfg3.N) (hf : (cfg3.win 3).flush t = true) :
    (dat3 V c).flushed 3 t = ((cfg3.win 3).blk t).view.read (Elt Ideal) (outsAt3 V c 9 last_lt).1 := by
  have hN : cfg3.N = 10 := N_3
  have h9 : t.val = 9 := by have := (flush3_3 t).mp hf; have := t.isLt; omega
  obtain rfl : t = t3_9 := Fin.ext h9
  show (cfg3.win 3).cut (grid3.coords t3_9) ((dat3 V c).after 3 t3_9) = _
  rw [after3_3]
  have hz' : (fun a => win3_3.index t3_9 a * main_v87_0.ty.shape.size a) = fun _ => 0 := funext fun a => by fin_cases a <;> decide
  exact (Memref.read_access_unit_zero (Elt Ideal) main_v87_0 hz' (fun a => by rw [congrFun hz' a]; simp) _).symm

/-- So the first output array ends holding what its block holds after the last point: that point's block covers the array. -/
theorem final3 (c : Dev nD) : (dat3 V c).arrAt 3 cfg3.N = (outsAt3 V c 9 last_lt).1 :=
  (dat3 V c).arrAt_eq_of_cover 3 _ (flushed3_eq V c) fun i =>
    ⟨t3_9, (flush3_3 t3_9).mpr rfl, by
      show i ∈ ((View.whole main_v87_0).slice (win3_3.rect t3_9)).set
      rw [View.set_slice_whole, Rect.mem_set_unit]
      intro a
      have h0 : (i 0 : Nat) < 128 := (i 0).isLt
      have h1 : (i 1 : Nat) < 128 := (i 1).isLt
      match a with
      | ⟨0, _⟩ => show win3_3.index t3_9 0 * win3_3.size 0 ≤ (i 0 : Nat) ∧ (i 0 : Nat) < win3_3.index t3_9 0 * win3_3.size 0 + win3_3.xsize (grid3.coords t3_9) 0
                  rw [show win3_3.index t3_9 0 * win3_3.size 0 = 0 from by decide +kernel, show win3_3.xsize (grid3.coords t3_9) 0 = 128 from by decide +kernel]; omega
      | ⟨1, _⟩ => show win3_3.index t3_9 1 * win3_3.size 1 ≤ (i 1 : Nat) ∧ (i 1 : Nat) < win3_3.index t3_9 1 * win3_3.size 1 + win3_3.xsize (grid3.coords t3_9) 1
                  rw [show win3_3.index t3_9 1 * win3_3.size 1 = 0 from by decide +kernel, show win3_3.xsize (grid3.coords t3_9) 1 = 128 from by decide +kernel]; omega⟩

/-- The one write-back of the second output, after the last point, writes what the block then holds. -/
theorem flushed4_eq (c : Dev nD) (t : Fin cfg3.N) (hf : (cfg3.win 4).flush t = true) :
    (dat3 V c).flushed 4 t = ((cfg3.win 4).blk t).view.read (Elt Ideal) (outsAt3 V c 9 last_lt).2 := by
  have hN : cfg3.N = 10 := N_3
  have h9 : t.val = 9 := by have := (flush3_4 t).mp hf; have := t.isLt; omega
  obtain rfl : t = t3_9 := Fin.ext h9
  show (cfg3.win 4).cut (grid3.coords t3_9) ((dat3 V c).after 4 t3_9) = _
  rw [after3_4]
  have hz' : (fun a => win3_4.index t3_9 a * main_v87_1.ty.shape.size a) = fun _ => 0 := funext fun a => by fin_cases a <;> decide
  exact (Memref.read_access_unit_zero (Elt Ideal) main_v87_1 hz' (fun a => by rw [congrFun hz' a]; simp) _).symm

/-- So the second output array ends holding what its block holds after the last point. -/
theorem final4 (c : Dev nD) : (dat3 V c).arrAt 4 cfg3.N = (outsAt3 V c 9 last_lt).2 :=
  (dat3 V c).arrAt_eq_of_cover 4 _ (flushed4_eq V c) fun i =>
    ⟨t3_9, (flush3_4 t3_9).mpr rfl, by
      show i ∈ ((View.whole main_v87_1).slice (win3_4.rect t3_9)).set
      rw [View.set_slice_whole, Rect.mem_set_unit]
      intro a
      have h0 : (i 0 : Nat) < 1 := (i 0).isLt
      have h1 : (i 1 : Nat) < 128 := (i 1).isLt
      match a with
      | ⟨0, _⟩ => show win3_4.index t3_9 0 * win3_4.size 0 ≤ (i 0 : Nat) ∧ (i 0 : Nat) < win3_4.index t3_9 0 * win3_4.size 0 + win3_4.xsize (grid3.coords t3_9) 0
                  rw [show win3_4.index t3_9 0 * win3_4.size 0 = 0 from by decide +kernel, show win3_4.xsize (grid3.coords t3_9) 0 = 1 from by decide +kernel]; omega
      | ⟨1, _⟩ => show win3_4.index t3_9 1 * win3_4.size 1 ≤ (i 1 : Nat) ∧ (i 1 : Nat) < win3_4.index t3_9 1 * win3_4.size 1 + win3_4.xsize (grid3.coords t3_9) 1
                  rw [show win3_4.index t3_9 1 * win3_4.size 1 = 0 from by decide +kernel, show win3_4.xsize (grid3.coords t3_9) 1 = 128 from by decide +kernel]; omega⟩

/-- After the last point entry `(g, j)` of the first output block is the sum over ALL nodes `n` of
    `membership (n, g) · max (feature (n, j) + bias j, 0)`: ten blocks of 10000 consecutive nodes make up the 100000. -/
theorem pooled_eq (c : Dev nD) (g j : Fin 128) :
    (outsAt3 V c 9 last_lt).1 (ix2 g j)
      = ∑ n : Fin 100000, memArr V c (ix2 n g) * max (aggArr V c (ix2 n j) + biasArr V c (ix2 (0 : Fin 1) j)) 0 := by
  rw [(outs_eq V c 9 last_lt).1 g j]
  refine Eq.trans ?_ (Cert.BlockSum.sum_blocks 10 10000
    (fun n : Fin 100000 => memArr V c (ix2 n g) * max (aggArr V c (ix2 n j) + biasArr V c (ix2 (0 : Fin 1) j)) 0))
  unfold poolTerm
  refine Finset.sum_congr rfl fun s _ => Finset.sum_congr rfl fun k _ => ?_
  rw [memBlk_apply, aggBlk_apply, biasBlk_apply]

/-- After the last point entry `g` of the second output block is the sum over all nodes of `membership (n, g)`. -/
theorem counted_eq (c : Dev nD) (g : Fin 128) :
    (outsAt3 V c 9 last_lt).2 (ix2 (0 : Fin 1) g) = ∑ n : Fin 100000, memArr V c (ix2 n g) := by
  rw [(outs_eq V c 9 last_lt).2 g]
  refine Eq.trans ?_ (Cert.BlockSum.sum_blocks 10 10000 (fun n : Fin 100000 => memArr V c (ix2 n g)))
  unfold cntTerm
  refine Finset.sum_congr rfl fun s _ => Finset.sum_congr rfl fun k _ => ?_
  rw [memBlk_apply]

end Run

-- the TensorCore's buffer contents when the region is entered
variable (V : (c : Dev nD) → (b : Ref sig .tc) → Buf (Elt Ideal) ((c : Thread nD τ).loc b))

/-- After the pooling region its first output array holds, in the row of each graph, the sum of the clamped features
    of the nodes whose word names that graph: the membership array holds one where node `n`'s word is graph `g`'s
    number and zero elsewhere, so the product with it over all nodes is the sum over the graph's nodes. -/
theorem arr_sum (c : Dev nD) (x2 : (⟨Cert.ReferenceIdeal.S100000, .i32⟩ : BufTy).Contents (Elt Ideal)) (bvec : Cert.Spec.Vec128 Ideal)
    (hb : ∀ k : Fin 128, V c main_v67 (ix2 (0 : Fin 1) k) = bvec (ix1 k))
    (hoh : ∀ (n : Fin 100000) (g : Fin 128),
      V c main_v86 (ix2 n g) = if x2 (ix1 n) = BitVec.ofNat 32 g.val then (1 : EReal) else 0) :
    (dat3 V c).arrAt 3 cfg3.N = Cert.Spec.pool (F := Ideal) x2 (Cert.Spec.act (F := Ideal) (V c main_v79) bvec) := by
  -- the array is the block after the last point; its entry `(g, j)` is the sum over all nodes of membership times the clamped
  -- feature; the membership is the indicator of the graph's word, and `1 · x = x`, `0 · x = 0` for every extended real, so the sum
  -- is over the graph's nodes: the scatter's entry
  refine (final3 V c).trans ?_
  funext i
  obtain ⟨g, j, rfl⟩ : ∃ (g j : Fin 128), i = ix2 g j := ⟨i 0, i 1, eq_ix2 i⟩
  refine (pooled_eq V c g j).trans ?_
  rw [pool_apply, Finset.sum_filter]
  refine Finset.sum_congr rfl fun n _ => ?_
  have hm : memArr V c (ix2 n g) = if x2 (ix1 n) = BitVec.ofNat 32 g.val then (1 : EReal) else 0 := hoh n g
  have hbj : biasArr V c (ix2 (0 : Fin 1) j) = bvec (ix1 j) := hb j
  rw [act_apply, hm, hbj]
  by_cases hp : x2 (ix1 n) = BitVec.ofNat 32 g.val
  · rw [if_pos hp, if_pos hp]
    exact one_mul _
  · rw [if_neg hp, if_neg hp]
    exact zero_mul _

/-- Its second output array holds each graph's number of nodes. -/
theorem arr_cnt (c : Dev nD) (x2 : (⟨Cert.ReferenceIdeal.S100000, .i32⟩ : BufTy).Contents (Elt Ideal))
    (hoh : ∀ (n : Fin 100000) (g : Fin 128),
      V c main_v86 (ix2 n g) = if x2 (ix1 n) = BitVec.ofNat 32 g.val then (1 : EReal) else 0)
    (g : Fin 128) :
    (dat3 V c).arrAt 4 cfg3.N (ix2 (0 : Fin 1) g) = Cert.Spec.cnt (F := Ideal) x2 (ix1 g) := by
  -- the entry is the sum over all nodes of the membership's column `g`, a one for each node whose word is graph `g`'s
  refine (congrFun (final4 V c) (ix2 (0 : Fin 1) g)).trans ((counted_eq V c g).trans ?_)
  rw [cnt_apply, Finset.sum_filter]
  exact Finset.sum_congr rfl fun n _ => hoh n g

end Cert.KernelIdeal.Region3

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.R4.lean ====
import proofs.«427432_j47828755808670_1_alg».proof.Proof.Gen.KernelIdeal.Frame
import proofs.«427432_j47828755808670_1_alg».proof.Proof.Spec
import proofs.«427432_j47828755808670_1_alg».proof.Proof.LibPlainDot
import proofs.«427432_j47828755808670_1_alg».proof.Proof.LibColumn
import Idealize.ShloMosaic.Lib.Pipeline.Value
import Idealize.ShloMosaic.PureOps.Ideal.Laws
set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-- THE MEAN. The pooled sums divided, row by row, by the row's count clamped below at one: the kernel turns the count
    row into a column, clamps it and spreads it along the rows; the host clamps the count vector, makes it a column and
    spreads it. At entry (p, k) both are the sum at (p, k) over the larger of count p and one. -/
theorem mean_stage (v0 : FVec Ideal S1x128 .f32) (v5 : FVec Ideal S128x128 .f32) (C : Cert.Spec.Vec128 Ideal)
    (hC : ∀ g : Fin 128, v0 (ix2 (0 : Fin 1) g) = C (ix1 g))
    (h1 : S1x128.ShapeCasts S1x128) (h2 : S1x128.Transposes [1, 0] S128x1) (h3 : S128x128.ShapeCasts S128x128)
    (h4 : S128x1.Broadcasts S128x128) :
    divf (shapeCast S128x128 v5 h3)
        (broadcastTo S128x128 (maximumf (transpose S128x1 [1, 0] (shapeCast S1x128 v0 h1) h2)
          (broadcast S128x1 (Scalar.ofBits (F := Ideal) .f32 0x3F800000#32))) h4)
      = Cert.Spec.mean (F := Ideal) v5 C := by
  funext j
  obtain ⟨p, k, rfl⟩ : ∃ (p : Fin 128) (k : Fin 128), j = ix2 p k := ⟨j 0, j 1, eq_ix2 j⟩
  rw [shapeCast_self, shapeCast_self]
  have ek : broadcastTo S128x128 (maximumf (transpose S128x1 [1, 0] v0 h2)
        (broadcast S128x1 (Scalar.ofBits (F := Ideal) .f32 0x3F800000#32))) h4 (ix2 p k)
      = max (C (ix1 p)) (Ideal.ofBits .f32 0x3F800000#32) := by
    refine (Cert.LibColumn.broadcastTo_a1_ab_apply _ h4 p k).trans ?_
    show max (transpose S128x1 [1, 0] v0 h2 (ix2 p (0 : Fin 1))) _ = _
    rw [transpose_apply [1, 0] v0 h2 (ix2 p (0 : Fin 1)) (ix2 (0 : Fin 1) p)
      (fun b => match b with | ⟨0, _⟩ => rfl | ⟨1, _⟩ => rfl), hC]
    rfl
  have eh : Cert.Spec.mean (F := Ideal) v5 C (ix2 p k)
      = Ideal.div (v5 (ix2 p k)) (max (C (ix1 p)) (Ideal.ofBits .f32 0x3F800000#32)) := by
    unfold Cert.Spec.mean
    show Ideal.div (v5 (ix2 p k)) (broadcastInDim _ _ _ _ (ix2 p k)) = _
    refine congrArg (Ideal.div (v5 (ix2 p k))) ?_
    refine (broadcastInDim_apply _ _ _ (ix2 p k) (ix2 p (0 : Fin 1))
      (fun a => match a with | ⟨0, _⟩ => rfl | ⟨1, _⟩ => rfl)).trans ?_
    refine (broadcastInDim_apply _ _ _ (ix2 p (0 : Fin 1)) (ix1 p) (fun a => match a with | ⟨0, _⟩ => rfl)).trans ?_
    rfl
  show Ideal.div (v5 (ix2 p k)) _ = _
  rw [ek, eh]

/-- A block product into the zero accumulator, whatever the operands' formats, at (p, q): the sum over the contracted
    coordinate of the products. -/
theorem matmul_plain_apply {A K B : ℕ} {φ₁ φ₂ : FTy} (d : DotDims ⟨2, ![A, K]⟩ ⟨2, ![K, B]⟩ ⟨2, ![A, B]⟩)
    (hd : d = DotDims.plain A K B) (prec : Option ContractPrecision) (lhs : FVec Ideal ⟨2, ![A, K]⟩ φ₁)
    (rhs : FVec Ideal ⟨2, ![K, B]⟩ φ₂) (p : Fin A) (q : Fin B) :
    FloatOps.matmul d prec lhs rhs (constant ⟨2, ![A, B]⟩ .f32 0x00000000#32) (ix2 p q)
      = ∑ k : Fin K, lhs (ix2 p k) * rhs (ix2 k q) := by
  subst hd
  rw [Ideal.matmul_constant_zero_apply]
  exact Cert.LibPlainDot.plain_sum lhs rhs p q

/-- A DENSE LAYER before its clamp: a matrix times the weights plus the bias laid along every row. The kernel narrows
    both operands (no change at the ideal values), multiplies into a zero accumulator and spreads the bias ROW down the
    rows; the host multiplies and spreads the bias VECTOR. At (p, j) both are the sum over k of M (p, k) · W (k, j), plus
    bias j. -/
theorem dense_stage {A K B : ℕ} (dK dR : DotDims ⟨2, ![A, K]⟩ ⟨2, ![K, B]⟩ ⟨2, ![A, B]⟩)
    (hK : dK = DotDims.plain A K B) (hR : dR = DotDims.plain A K B)
    (M : FVec Ideal ⟨2, ![A, K]⟩ .f32) (W : FVec Ideal ⟨2, ![K, B]⟩ .f32) (r : FVec Ideal ⟨2, ![1, B]⟩ .f32)
    (x : FVec Ideal ⟨1, ![B]⟩ .f32) (hr : ∀ j : Fin B, r (ix2 (0 : Fin 1) j) = x (ix1 j))
    (hb : FTy.bits .bf16 < FTy.bits .f32) (h1 : (⟨2, ![1, B]⟩ : Shape).ShapeCasts ⟨2, ![1, B]⟩)
    (h2 : (⟨2, ![1, B]⟩ : Shape).Broadcasts ⟨2, ![A, B]⟩)
    (b1 : (⟨2, ![1, B]⟩ : Shape).BroadcastsInDim ⟨2, ![A, B]⟩ ![0, 1])
    (b2 : (⟨1, ![B]⟩ : Shape).BroadcastsInDim ⟨2, ![1, B]⟩ ![1]) :
    addf (matmul dK none (truncf .bf16 M hb) (truncf .bf16 W hb) (constant ⟨2, ![A, B]⟩ .f32 0x00000000#32))
        (broadcastTo ⟨2, ![A, B]⟩ (shapeCast ⟨2, ![1, B]⟩ r h1) h2)
      = addf (Host.dotGeneral dR none M W)
          (broadcastInDim ⟨2, ![A, B]⟩ ![0, 1] b1 (broadcastInDim ⟨2, ![1, B]⟩ ![1] b2 x)) := by
  funext i
  obtain ⟨p, j, rfl⟩ : ∃ (p : Fin A) (j : Fin B), i = ix2 p j := ⟨i 0, i 1, eq_ix2 i⟩
  rw [shapeCast_self]
  have hj : j.val < B := j.isLt
  -- the products
  have em : matmul dK none (truncf .bf16 M hb) (truncf .bf16 W hb) (constant ⟨2, ![A, B]⟩ .f32 0x00000000#32) (ix2 p j)
      = ∑ k : Fin K, M (ix2 p k) * W (ix2 k j) := matmul_plain_apply dK hK none _ _ p j
  have ed : Host.dotGeneral dR none M W (ix2 p j) = ∑ k : Fin K, M (ix2 p k) * W (ix2 k j) := by
    subst hR
    refine (Ideal.dotGeneral_apply _ none _ M W (ix2 p j)).trans ?_
    exact Cert.LibPlainDot.plain_sum M W p j
  -- the bias
  have eb : broadcastTo ⟨2, ![A, B]⟩ r h2 (ix2 p j) = x (ix1 j) := by
    refine (broadcastTo_apply r h2 (ix2 p j) (ix2 (0 : Fin 1) j) (fun a => ?_)).trans (hr j)
    match a with
    | ⟨0, _⟩ => rfl
    | ⟨1, _⟩ =>
      show j.val = if B = 1 then 0 else j.val
      split
      · omega
      · rfl
  have eh : broadcastInDim ⟨2, ![A, B]⟩ ![0, 1] b1 (broadcastInDim ⟨2, ![1, B]⟩ ![1] b2 x) (ix2 p j) = x (ix1 j) := by
    refine (broadcastInDim_apply ![0, 1] b1 _ (ix2 p j) (ix2 (0 : Fin 1) j) (fun a => ?_)).trans ?_
    · match a with
      | ⟨0, _⟩ => rfl
      | ⟨1, _⟩ =>
        show j.val = if B = 1 then 0 else j.val
        split
        · omega
        · rfl
    · refine broadcastInDim_apply ![1] b2 x (ix2 (0 : Fin 1) j) (ix1 j) (fun a => ?_)
      match a with
      | ⟨0, _⟩ =>
        show j.val = if B = 1 then 0 else j.val
        split
        · omega
        · rfl
  exact congrArg₂ (fun a b : EReal => a + b) (em.trans ed.symm) (eb.trans eh.symm)

/-- THE HIDDEN LAYER: the dense layer of the mean clamped below at zero (the kernel's splat of zero is the host's
    broadcast zero constant). -/
theorem hidden_stage (Mk Mh : FVec Ideal S128x128 .f32) (hM : Mk = Mh) (W : FVec Ideal S128x128 .f32)
    (r : FVec Ideal S1x128 .f32) (x8 : Cert.Spec.Vec128 Ideal) (hr : ∀ j : Fin 128, r (ix2 (0 : Fin 1) j) = x8 (ix1 j))
    (hb : FTy.bits .bf16 < FTy.bits .f32) (h1 : S1x128.ShapeCasts S1x128) (h2 : S1x128.Broadcasts S128x128) :
    maximumf (addf (matmul dot_S128x128_S128x128_S128x128_1_0_0_1_n_n none (truncf .bf16 Mk hb) (truncf .bf16 W hb)
          (constant S128x128 .f32 0x00000000#32)) (broadcastTo S128x128 (shapeCast S1x128 r h1) h2))
        (broadcast S128x128 (Scalar.ofBits (F := Ideal) .f32 0x00000000#32))
      = Cert.Spec.hidden (F := Ideal) Mh W x8 := by
  subst Mk
  unfold Cert.Spec.hidden
  rw [dense_stage dot_S128x128_S128x128_S128x128_1_0_0_1_n_n Cert.ReferenceIdeal.dot_S128x128_S128x128_S128x128_1_0_0_1_n_n
    (Cert.LibPlainDot.eq_plain _ rfl rfl rfl rfl rfl rfl) (Cert.LibPlainDot.eq_plain _ rfl rfl rfl rfl rfl rfl)
    Mh W r x8 hr hb h1 h2 Cert.ReferenceIdeal.Facts₀.bcast_S1x128_S128x128_0_1 Cert.ReferenceIdeal.Facts₀.bcast_S128_S1x128_1]
  rfl

/-- THE SCORES: the dense layer of the hidden values, no clamp. -/
theorem logits_stage (Hk Hh : FVec Ideal S128x128 .f32) (hH : Hk = Hh) (W : FVec Ideal S128x10 .f32)
    (r : FVec Ideal S1x10 .f32) (x10 : (⟨Cert.ReferenceIdeal.S10, .f32⟩ : BufTy).Contents (Elt Ideal))
    (hr : ∀ j : Fin 10, r (ix2 (0 : Fin 1) j) = x10 (ix1 j))
    (hb : FTy.bits .bf16 < FTy.bits .f32) (h1 : S1x10.ShapeCasts S1x10) (h2 : S1x10.Broadcasts S128x10) :
    addf (matmul dot_S128x128_S128x10_S128x10_1_0_0_1_n_n none (truncf .bf16 Hk hb) (truncf .bf16 W hb)
          (constant S128x10 .f32 0x00000000#32)) (broadcastTo S128x10 (shapeCast S1x10 r h1) h2)
      = Cert.Spec.logits (F := Ideal) Hh W x10 := by
  subst Hk
  unfold Cert.Spec.logits
  exact dense_stage dot_S128x128_S128x10_S128x10_1_0_0_1_n_n Cert.ReferenceIdeal.dot_S128x128_S128x10_S128x10_1_0_0_1_n_n
    (Cert.LibPlainDot.eq_plain _ rfl rfl rfl rfl rfl rfl) (Cert.LibPlainDot.eq_plain _ rfl rfl rfl rfl rfl rfl)
    Hh W r x10 hr hb h1 h2 Cert.ReferenceIdeal.Facts₀.bcast_S1x10_S128x10_0_1 Cert.ReferenceIdeal.Facts₀.bcast_S10_S1x10_1

/-- THE SHIFT. Each row's scores minus the row's largest score (itself clamped below by minus infinity): the kernel
    folds the lane maximum from minus infinity, makes the 128 results a column and spreads it along the ten lanes; the
    host reduces over the same axis from the same value. Over one axis both are the fold of the maximum over that
    axis's coordinates, from the same starting value. -/
theorem shifted_stage (Lk L : FVec Ideal S128x10 .f32) (hL : Lk = L) (hr : S128x10.Reduces [1] S128) (hφ : FKind.Formats .f32)
    (hacc : (0xFF800000#32 : BitVec 32) = 0xFF800000#32)
    (hc : S128.ShapeCasts S128x1) (hb : S128x1.Broadcasts S128x10) :
    subf Lk (broadcastTo S128x10 (shapeCast S128x1
        (maximumf (broadcast S128 (Scalar.ofBits (F := Ideal) .f32 0xFF800000#32))
          (multiReduction .maximumf [1] S128 Lk 0xFF800000#32 hr hφ hacc)) hc) hb)
      = Cert.Spec.shifted (F := Ideal) L := by
  subst Lk
  funext i
  obtain ⟨p, q, rfl⟩ : ∃ (p : Fin 128) (q : Fin 10), i = ix2 p q := ⟨i 0, i 1, eq_ix2 i⟩
  -- the kernel's column at (p, q): the clamped lane maximum of row p
  have ek : broadcastTo S128x10 (shapeCast S128x1
        (maximumf (broadcast S128 (Scalar.ofBits (F := Ideal) .f32 0xFF800000#32))
          (multiReduction .maximumf [1] S128 L 0xFF800000#32 hr hφ hacc)) hc) hb (ix2 p q)
      = max (Ideal.ofBits .f32 0xFF800000#32)
          ((Finset.univ : Finset (Fin (S128x10.size 1))).fold max (Ideal.ofBits .f32 0xFF800000#32) (L ∘ hr.lift (ix1 p))) := by
    refine (Cert.LibColumn.broadcastTo_a1_ab_apply _ hb p q).trans ?_
    refine (Cert.LibColumn.shapeCast_a_a1_apply _ hc p (0 : Fin 1)).trans ?_
    exact congrArg (max (Ideal.ofBits .f32 0xFF800000#32))
      (Ideal.multiReduction_maximumf_single L 0xFF800000#32 hr hφ hacc (ix1 p))
  -- the host's
  have eh : Cert.Spec.shifted (F := Ideal) L (ix2 p q)
      = L (ix2 p q) - max (Ideal.ofBits .f32 0xFF800000#32)
          ((Finset.univ : Finset (Fin (S128x10.size 1))).fold max (Ideal.ofBits .f32 0xFF800000#32) (L ∘ hr.lift (ix1 p))) := by
    unfold Cert.Spec.shifted
    show L (ix2 p q) - broadcastInDim _ _ _ _ (ix2 p q) = _
    refine congrArg (fun z : EReal => L (ix2 p q) - z) ?_
    refine (broadcastInDim_apply _ _ _ (ix2 p q) (ix2 p (0 : Fin 1))
      (fun a => match a with | ⟨0, _⟩ => rfl | ⟨1, _⟩ => rfl)).trans ?_
    refine (broadcastInDim_apply _ _ _ (ix2 p (0 : Fin 1)) (ix1 p) (fun a => match a with | ⟨0, _⟩ => rfl)).trans ?_
    exact congrArg (max (Ideal.ofBits .f32 0xFF800000#32))
      (Host.reduce_eq_fold_single (FloatOps.maximumf (F := Ideal) (φ := .f32)) L _ _ hr _ (ix1 p))
  rw [eh]
  exact congrArg (fun z : EReal => L (ix2 p q) - z) ek

/-- THE NORMALISATION. The shifted scores minus, in each row, the logarithm of the sum of the row's exponentials: the
    kernel sums the lanes (from the neutral zero, which is dropped), makes the sums a column, takes the logarithm and
    spreads it; the host sums from a zero initial value, makes the column, takes the logarithm and spreads it. -/
theorem normalised_stage (Sk S : FVec Ideal S128x10 .f32) (hS : Sk = S) (hr : S128x10.Reduces [1] S128) (hφ : FKind.Formats .f32)
    (hacc : (0x00000000#32 : BitVec 32) = 0x00000000#32)
    (hc : S128.ShapeCasts S128x1) (hb : S128x1.Broadcasts S128x10)
    (hrt : Cert.ReferenceIdeal.S128x10.ReducesTo [1] Cert.ReferenceIdeal.S128) (hu : 0 < Cert.ReferenceIdeal.S_.numel)
    (b1 : Cert.ReferenceIdeal.S128x1.BroadcastsInDim Cert.ReferenceIdeal.S128x10 ![0, 1])
    (b2 : Cert.ReferenceIdeal.S128.BroadcastsInDim Cert.ReferenceIdeal.S128x1 ![0]) :
    subf Sk (broadcastTo S128x10 (log (shapeCast S128x1
        (multiReduction .add [1] S128 (exp Sk) 0x00000000#32 hr hφ hacc) hc)) hb)
      = subf S (broadcastInDim (s := Cert.ReferenceIdeal.S128x1) Cert.ReferenceIdeal.S128x10 ![0, 1] b1 (Host.log
          (broadcastInDim (s := Cert.ReferenceIdeal.S128) Cert.ReferenceIdeal.S128x1 ![0] b2
            (Host.reduceAdd (Host.exp S) (constant (F := Ideal) Cert.ReferenceIdeal.S_ .f32 0x00000000#32) hrt hu)))) := by
  subst Sk
  funext i
  obtain ⟨p, q, rfl⟩ : ∃ (p : Fin 128) (q : Fin 10), i = ix2 p q := ⟨i 0, i 1, eq_ix2 i⟩
  have ek : broadcastTo S128x10 (log (shapeCast S128x1
        (multiReduction .add [1] S128 (exp S) 0x00000000#32 hr hφ hacc) hc)) hb (ix2 p q)
      = Ideal.log (∑ k : Fin (S128x10.size 1), Ideal.exp (S (hr.lift (ix1 p) k))) := by
    refine (Cert.LibColumn.broadcastTo_a1_ab_apply _ hb p q).trans ?_
    show Ideal.log (shapeCast S128x1 _ hc (ix2 p (0 : Fin 1))) = _
    refine congrArg Ideal.log ?_
    refine (Cert.LibColumn.shapeCast_a_a1_apply _ hc p (0 : Fin 1)).trans ?_
    exact Ideal.multiReduction_add_single (exp S) 0x00000000#32 hr hφ hacc (ix1 p)
  have eh : broadcastInDim (s := Cert.ReferenceIdeal.S128x1) Cert.ReferenceIdeal.S128x10 ![0, 1] b1 (Host.log
          (broadcastInDim (s := Cert.ReferenceIdeal.S128) Cert.ReferenceIdeal.S128x1 ![0] b2
            (Host.reduceAdd (Host.exp S) (constant (F := Ideal) Cert.ReferenceIdeal.S_ .f32 0x00000000#32) hrt hu))) (ix2 p q)
      = Ideal.log (∑ k : Fin (S128x10.size 1), Ideal.exp (S (hr.lift (ix1 p) k))) := by
    refine (broadcastInDim_apply ![0, 1] b1 _ (ix2 p q) (ix2 p (0 : Fin 1))
      (fun a => match a with | ⟨0, _⟩ => rfl | ⟨1, _⟩ => rfl)).trans ?_
    show Ideal.log (broadcastInDim (s := Cert.ReferenceIdeal.S128) Cert.ReferenceIdeal.S128x1 ![0] b2 _ (ix2 p (0 : Fin 1))) = _
    refine congrArg Ideal.log ?_
    refine (broadcastInDim_apply ![0] b2 _ (ix2 p (0 : Fin 1)) (ix1 p) (fun a => match a with | ⟨0, _⟩ => rfl)).trans ?_
    show Ideal.hostReduceAdd hrt (Host.exp S) (Ideal.ofBits .f32 0x00000000#32) (ix1 p) = _
    rw [Ideal.hostReduceAdd_single hrt hr, Ideal.ofBits_zero_f32, zero_add]
    rfl
  exact congrArg (fun z : EReal => S (ix2 p q) - z) (ek.trans eh.symm)

/-- The normalised shifted scores are the host's logarithm of the softmax. -/
theorem logSoftmax_stage (Lk L : FVec Ideal S128x10 .f32) (hL : Lk = L) (hr : S128x10.Reduces [1] S128)
    (hφ : FKind.Formats .f32) (hmax : (0xFF800000#32 : BitVec 32) = 0xFF800000#32)
    (hadd : (0x00000000#32 : BitVec 32) = 0x00000000#32) (hc : S128.ShapeCasts S128x1) (hb : S128x1.Broadcasts S128x10) :
    subf (subf Lk (broadcastTo S128x10 (shapeCast S128x1
          (maximumf (broadcast S128 (Scalar.ofBits (F := Ideal) .f32 0xFF800000#32))
            (multiReduction .maximumf [1] S128 Lk 0xFF800000#32 hr hφ hmax)) hc) hb))
        (broadcastTo S128x10 (log (shapeCast S128x1
          (multiReduction .add [1] S128 (exp (subf Lk (broadcastTo S128x10 (shapeCast S128x1
            (maximumf (broadcast S128 (Scalar.ofBits (F := Ideal) .f32 0xFF800000#32))
              (multiReduction .maximumf [1] S128 Lk 0xFF800000#32 hr hφ hmax)) hc) hb))) 0x00000000#32 hr hφ hadd) hc)) hb)
      = Cert.Spec.logSoftmax (F := Ideal) L :=
  normalised_stage _ _ (shifted_stage Lk L hL hr hφ hmax hc hb) hr hφ hadd hc hb
    Cert.ReferenceIdeal.Facts₀.reducesTo_S128x10_S128_d1 Cert.ReferenceIdeal.Facts₀.h_S_
    Cert.ReferenceIdeal.Facts₀.bcast_S128x1_S128x10_0_1 Cert.ReferenceIdeal.Facts₀.bcast_S128_S128x1_0

/-- THE PAYLOAD IS THE CLASSIFIER. The body's one stored value, from the six blocks it loads, is the host's chain
    mean, hidden layer, scores, shift, normalisation, applied to the pooled sums, the counts, the two weight matrices and
    the two biases. -/
theorem payload_eq (v0 : Vec Ideal S1x128 .f32) (v5 : Vec Ideal S128x128 .f32) (v10 : Vec Ideal S128x128 .f32)
    (v13 : Vec Ideal S1x128 .f32) (v20 : Vec Ideal S128x10 .f32) (v23 : Vec Ideal S1x10 .f32)
    (C x8 : Cert.Spec.Vec128 Ideal) (x10 : (⟨Cert.ReferenceIdeal.S10, .f32⟩ : BufTy).Contents (Elt Ideal))
    (hC : ∀ g : Fin 128, v0 (ix2 (0 : Fin 1) g) = C (ix1 g))
    (hb1 : ∀ k : Fin 128, v13 (ix2 (0 : Fin 1) k) = x8 (ix1 k))
    (hb2 : ∀ k : Fin 10, v23 (ix2 (0 : Fin 1) k) = x10 (ix1 k)) :
    k4_pay1 (F := Ideal) v0 v5 v10 v13 v20 v23 = Cert.Spec.head (F := Ideal) v5 C v10 x8 v20 x10 :=
  logSoftmax_stage _ _
    (logits_stage _ _
      (hidden_stage _ _ (mean_stage v0 v5 C hC _ _ _ _) v10 v13 x8 hb1 _ _ _)
      v20 v23 x10 hb2 _ _ _)
    _ _ _ _ _ _

/-- The zero offsets of the body's whole-buffer accesses. -/
theorem zero_offsets : (![0, 0] : Fin 2 → Nat) = fun _ => 0 := funext fun a => by fin_cases a <;> rfl

/-- The grid has one point, and at it every window's block is block (0, 0) of its array. -/
theorem index_zero : ∀ t : Fin cfg4.N,
    (win4_0.index t (0 : Fin 2) = 0 ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) :=
  (by decide +kernel : ∀ t : Fin grid4.N, _)

/-- Each input window's block is its whole array: entry y of the block is entry y of the array. -/
theorem block0_whole (c : Dev nD) (t : Fin cfg4.N) (y : S128x128.Idx) : iblk4 V c 0 t y = V c main_v87_0 y := by
  obtain ⟨⟨e0, e1⟩, -⟩ := index_zero t
  show V c main_v87_0 (((cfg4.win 0).blk t).view.emb y) = V c main_v87_0 y
  refine congrArg (V c main_v87_0) (funext fun a => Fin.ext ?_)
  match a with
  | ⟨0, _⟩ => show win4_0.index t (0 : Fin 2) * 128 + 1 * (y 0).val = (y 0).val; omega
  | ⟨1, _⟩ => show win4_0.index t (1 : Fin 2) * 128 + 1 * (y 1).val = (y 1).val; omega
theorem block1_whole (c : Dev nD) (t : Fin cfg4.N) (y : S1x128.Idx) : iblk4 V c 1 t y = V c main_v87_1 y := by
  obtain ⟨-, ⟨e0, e1⟩, -⟩ := index_zero t
  show V c main_v87_1 (((cfg4.win 1).blk t).view.emb y) = V c main_v87_1 y
  refine congrArg (V c main_v87_1) (funext fun a => Fin.ext ?_)
  match a with
  | ⟨0, _⟩ => show win4_1.index t (0 : Fin 2) * 1 + 1 * (y 0).val = (y 0).val; omega
  | ⟨1, _⟩ => show win4_1.index t (1 : Fin 2) * 128 + 1 * (y 1).val = (y 1).val; omega
theorem block2_whole (c : Dev nD) (t : Fin cfg4.N) (y : S128x128.Idx) : iblk4 V c 2 t y = V c main_arg7 y := by
  obtain ⟨-, -, ⟨e0, e1⟩, -⟩ := index_zero t
  show V c main_arg7 (((cfg4.win 2).blk t).view.emb y) = V c main_arg7 y
  refine congrArg (V c main_arg7) (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega
theorem block3_whole (c : Dev nD) (t : Fin cfg4.N) (y : S1x128.Idx) : iblk4 V c 3 t y = V c main_v88 y := by
  obtain ⟨-, -, -, ⟨e0, e1⟩, -⟩ := index_zero t
  show V c main_v88 (((cfg4.win 3).blk t).view.emb y) = V c main_v88 y
  refine congrArg (V c main_v88) (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega
theorem block4_whole (c : Dev nD) (t : Fin cfg4.N) (y : S128x10.Idx) : iblk4 V c 4 t y = V c main_arg9 y := by
  obtain ⟨-, -, -, -, ⟨e0, e1⟩, -⟩ := index_zero t
  show V c main_arg9 (((cfg4.win 4).blk t).view.emb y) = V c main_arg9 y
  refine congrArg (V c main_arg9) (funext fun a => Fin.ext ?_)
  match a with
  | ⟨0, _⟩ => show win4_4.index t (0 : Fin 2) * 128 + 1 * (y 0).val = (y 0).val; omega
  | ⟨1, _⟩ => show win4_4.index t (1 : Fin 2) * 10 + 1 * (y 1).val = (y 1).val; omega
theorem block5_whole (c : Dev nD) (t : Fin cfg4.N) (y : S1x10.Idx) : iblk4 V c 5 t y = V c main_v89 y := by
  obtain ⟨-, -, -, -, -, ⟨e0, e1⟩, -⟩ := index_zero t
  show V c main_v89 (((cfg4.win 5).blk t).view.emb y) = V c main_v89 y
  refine congrArg (V c main_v89) (funext fun a => Fin.ext ?_)
  match a with
  | ⟨0, _⟩ => show win4_5.index t (0 : Fin 2) * 1 + 1 * (y 0).val = (y 0).val; omega
  | ⟨1, _⟩ => show win4_5.index t (1 : Fin 2) * 10 + 1 * (y 1).val = (y 1).val; omega

/-- What the body leaves in the output's buffer, from blocks that are entry by entry the arrays (the count row and the
    bias rows entry by entry the vectors): its one store covers the buffer, its loads read the whole blocks, and its
    payload is the classifier. -/
theorem out_block_eq (x0 : Vec Ideal S128x128 .f32) (x1 : Vec Ideal S1x128 .f32) (x2 : Vec Ideal S128x128 .f32)
    (x3 : Vec Ideal S1x128 .f32) (x4 : Vec Ideal S128x10 .f32) (x5 : Vec Ideal S1x10 .f32)
    (P W1 : Cert.Spec.Mat Ideal) (W2 : (⟨Cert.ReferenceIdeal.S128x10, .f32⟩ : BufTy).Contents (Elt Ideal))
    (C x8 : Cert.Spec.Vec128 Ideal) (x10 : (⟨Cert.ReferenceIdeal.S10, .f32⟩ : BufTy).Contents (Elt Ideal))
    (h0 : ∀ y, x0 y = P y) (h1 : ∀ g : Fin 128, x1 (ix2 (0 : Fin 1) g) = C (ix1 g)) (h2 : ∀ y, x2 y = W1 y)
    (h3 : ∀ k : Fin 128, x3 (ix2 (0 : Fin 1) k) = x8 (ix1 k)) (h4 : ∀ y, x4 y = W2 y)
    (h5 : ∀ k : Fin 10, x5 (ix2 (0 : Fin 1) k) = x10 (ix1 k)) :
    out4_6 x0 x1 x2 x3 x4 x5 = Cert.Spec.head (F := Ideal) P C W1 x8 W2 x10 := by
  obtain rfl : x0 = P := funext h0
  obtain rfl : x2 = W1 := funext h2
  obtain rfl : x4 = W2 := funext h4
  unfold out4_6
  rw [View.canon_unit_zero zero_offsets]
  simp only [View.ld_unit_zero (S := S1x128) zero_offsets, View.ld_unit_zero (S := S128x128) zero_offsets,
    View.ld_unit_zero (S := S128x10) zero_offsets, View.ld_unit_zero (S := S1x10) zero_offsets]
  exact payload_eq x1 x0 x2 x3 x4 x5 C x8 x10 h1 h3 h5

/-- An index of the output array is in point t's block iff each coordinate is in the block's range on its axis. -/
theorem mem_out_block (t : Fin cfg4.N) (i : S128x10.Idx) :
    i ∈ ((cfg4.win 6).blk t).view.set ↔ ∀ a : Fin 2, win4_6.index t a * S128x10.size a ≤ (i a).val
      ∧ (i a).val < win4_6.index t a * S128x10.size a + S128x10.size a := by
  show i ∈ ((View.whole main_v90).slice (win4_6.rect t)).set ↔ _
  rw [View.set_slice_whole, Rect.mem_set_unit]
  exact Iff.rfl

/-- After the last region its output array holds the classifier applied to the pooled sums and the counts. The counts
    and the two bias rows are given entry by entry. -/
theorem arr (c : Dev nD) (C x8 : Cert.Spec.Vec128 Ideal) (x10 : (⟨Cert.ReferenceIdeal.S10, .f32⟩ : BufTy).Contents (Elt Ideal))
    (hC : ∀ g : Fin 128, V c main_v87_1 (ix2 (0 : Fin 1) g) = C (ix1 g))
    (hb1 : ∀ k : Fin 128, V c main_v88 (ix2 (0 : Fin 1) k) = x8 (ix1 k))
    (hb2 : ∀ k : Fin 10, V c main_v89 (ix2 (0 : Fin 1) k) = x10 (ix1 k)) :
    (dat4 V c).arrAt 6 cfg4.N
      = Cert.Spec.head (F := Ideal) (V c main_v87_0) C (V c main_arg7) x8 (V c main_arg9) x10 := by
  refine (dat4 V c).arrAt_eq_of_cover 6 _ (fun t _ => ?_) (fun i => ?_)
  · -- what the one point writes back is the whole of the classifier's array
    show (cfg4.win 6).cut (grid4.coords t) ((dat4 V c).after 6 t) = _
    rw [after4_6]
    refine (congrArg ((cfg4.win 6).cut (grid4.coords t))
      (out_block_eq (iblk4 V c 0 t) (iblk4 V c 1 t) (iblk4 V c 2 t) (iblk4 V c 3 t) (iblk4 V c 4 t) (iblk4 V c 5 t)
        (V c main_v87_0) (V c main_arg7) (V c main_arg9) C x8 x10 (block0_whole V c t)
        (fun g => (block1_whole V c t (ix2 (0 : Fin 1) g)).trans (hC g)) (block2_whole V c t)
        (fun k => (block3_whole V c t (ix2 (0 : Fin 1) k)).trans (hb1 k)) (block4_whole V c t)
        (fun k => (block5_whole V c t (ix2 (0 : Fin 1) k)).trans (hb2 k)))).trans ?_
    -- a whole block read through the window is the array itself
    generalize Cert.Spec.head (F := Ideal) (V c main_v87_0) C (V c main_arg7) x8 (V c main_arg9) x10 = G
    obtain ⟨-, -, -, -, -, -, e0, e1⟩ := index_zero t
    funext j
    show G _ = G (((cfg4.win 6).blk t).view.emb j)
    refine congrArg G (funext fun a => Fin.ext ?_)
    match a with
    | ⟨0, _⟩ => show (j 0).val = win4_6.index t (0 : Fin 2) * 128 + 1 * (j 0).val; omega
    | ⟨1, _⟩ => show (j 1).val = win4_6.index t (1 : Fin 2) * 10 + 1 * (j 1).val; omega
  · -- the one point's block is the whole array
    obtain ⟨-, -, -, -, -, -, e0, e1⟩ := index_zero t4_0
    refine ⟨t4_0, flush4_6 t4_0, ?_⟩
    rw [mem_out_block]
    intro a
    match a with
    | ⟨0, _⟩ =>
      show win4_6.index t4_0 (0 : Fin 2) * 128 ≤ (i 0).val ∧ (i 0).val < win4_6.index t4_0 (0 : Fin 2) * 128 + 128
      have hi : (i 0).val < 128 := (i 0).isLt
      omega
    | ⟨1, _⟩ =>
      show win4_6.index t4_0 (1 : Fin 2) * 10 ≤ (i 1).val ∧ (i 1).val < win4_6.index t4_0 (1 : Fin 2) * 10 + 10
      have hi : (i 1).val < 10 := (i 1).isLt
      omega

end Cert.KernelIdeal.Region4

end
-- ==== Proof.KChain.lean ====
/-
  The kernel's result array followed back through the program: five kernel regions among stretches of host operations.
  At each boundary the buffers the rest of the program reads are named as the reference's own stages of the argument
  arrays: the edge lists and the edge coefficients computed before the first region, each region's output array
  (a projection, two layers, the pooled sums with the counts, the classifier), each aggregation between two regions.
  A buffer that a stretch or a region does not write keeps its contents.
-/
import proofs.«427432_j47828755808670_1_alg».proof.Proof.Gen.KernelIdeal.Frame
import proofs.«427432_j47828755808670_1_alg».proof.Proof.Spec
import proofs.«427432_j47828755808670_1_alg».proof.Proof.RefRead
import proofs.«427432_j47828755808670_1_alg».proof.Proof.RefSide
import proofs.«427432_j47828755808670_1_alg».proof.Proof.KHost
import proofs.«427432_j47828755808670_1_alg».proof.Proof.R0
import proofs.«427432_j47828755808670_1_alg».proof.Proof.R1
import proofs.«427432_j47828755808670_1_alg».proof.Proof.R2
import proofs.«427432_j47828755808670_1_alg».proof.Proof.R3
import proofs.«427432_j47828755808670_1_alg».proof.Proof.R4

set_option maxRecDepth 16384

noncomputable section

namespace Cert.KernelIdeal.Chain

open Cert.KernelIdeal Cert.KernelIdeal.Gen Cert.ReferenceIdeal.ReadP
open Idealize.ShloMosaic Idealize.ShloMosaic.TcCoe Idealize.ShloMosaic.ValueIdx Idealize.SL.Sem

/-- A buffer that no operation of a literal list of host operations writes keeps its contents: the goal
    "the contents after the list, at the buffer, are X" becomes "the contents before the list, at the buffer, are X". -/
macro "keep_host" l:ident : tactic => `(tactic|
  refine Eq.trans (StableHlo.after_of_forall_not_mem _ _ (List.forall_iff_forall_mem.mp (by
    simp only [$l:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))) ?_)

/-- A buffer that is none of a region's arrays keeps its contents across the region. -/
macro "keep_r0" : tactic => `(tactic| refine Eq.trans (W4_of_ne _ _ _ _ (by decide)) ?_)
macro "keep_r1" : tactic => `(tactic| refine Eq.trans (W6_of_ne _ _ _ _ (by decide)) ?_)
macro "keep_r2" : tactic => `(tactic| refine Eq.trans (W8_of_ne _ _ _ _ (by decide)) ?_)
macro "keep_r3" : tactic => `(tactic| refine Eq.trans (W10_of_ne _ _ _ _ (by decide)) ?_)

variable (m : (ℓ : Loc nD τ sig) → Buf (Elt Ideal) ℓ) (ρ : Dev nD → PrngReg) (c : Dev nD)

/-- The launch contents of a buffer. -/
abbrev at0 (b : Ref sig .tc) : Buf (Elt Ideal) ((c : Thread nD τ).loc b) := m ((c : Thread nD τ).loc b)

/-! ## Buffers that keep their contents -/

-- the argument arrays, up to the boundary where each is read
theorem k3_arg0 : W3 m ρ c (Proc.devRef .tc main_arg0) = at0 m c main_arg0 := by
  keep_host hostOps0_2; keep_host hostOps0_1; keep_host hostOps0; rfl
theorem k3_arg3 : W3 m ρ c (Proc.devRef .tc main_arg3) = at0 m c main_arg3 := by
  keep_host hostOps0_2; keep_host hostOps0_1; keep_host hostOps0; rfl
theorem k4_arg5 : W4 m ρ c (Proc.devRef .tc main_arg5) = at0 m c main_arg5 := by
  keep_r0; keep_host hostOps0_2; keep_host hostOps0_1; keep_host hostOps0; rfl
theorem k6_arg5 : W6 m ρ c (Proc.devRef .tc main_arg5) = at0 m c main_arg5 := by
  keep_r1; keep_host hostOps1; exact k4_arg5 m ρ c
theorem k8_arg2 : W8 m ρ c (Proc.devRef .tc main_arg2) = at0 m c main_arg2 := by
  keep_r2; keep_host hostOps2; keep_r1; keep_host hostOps1; keep_r0
  keep_host hostOps0_2; keep_host hostOps0_1; keep_host hostOps0; rfl
theorem k10_arg8 : W10 m ρ c (Proc.devRef .tc main_arg8) = at0 m c main_arg8 := by
  keep_r3; keep_host hostOps3; keep_r2; keep_host hostOps2; keep_r1; keep_host hostOps1; keep_r0
  keep_host hostOps0_2; keep_host hostOps0_1; keep_host hostOps0; rfl
theorem k10_arg10 : W10 m ρ c (Proc.devRef .tc main_arg10) = at0 m c main_arg10 := by
  keep_r3; keep_host hostOps3; keep_r2; keep_host hostOps2; keep_r1; keep_host hostOps1; keep_r0
  keep_host hostOps0_2; keep_host hostOps0_1; keep_host hostOps0; rfl
theorem k11_arg7 : W11 m ρ c (Proc.devRef .tc main_arg7) = at0 m c main_arg7 := by
  keep_host hostOps4
  keep_r3; keep_host hostOps3; keep_r2; keep_host hostOps2; keep_r1; keep_host hostOps1; keep_r0
  keep_host hostOps0_2; keep_host hostOps0_1; keep_host hostOps0; rfl
theorem k11_arg9 : W11 m ρ c (Proc.devRef .tc main_arg9) = at0 m c main_arg9 := by
  keep_host hostOps4
  keep_r3; keep_host hostOps3; keep_r2; keep_host hostOps2; keep_r1; keep_host hostOps1; keep_r0
  keep_host hostOps0_2; keep_host hostOps0_1; keep_host hostOps0; rfl

-- the source words, the target words and the edge coefficients, from the first region's entry to each aggregation
theorem k4_v3 : W4 m ρ c (Proc.devRef .tc main_v3) = W3 m ρ c (Proc.devRef .tc main_v3) := by keep_r0; rfl
theorem k4_v6 : W4 m ρ c (Proc.devRef .tc main_v6) = W3 m ρ c (Proc.devRef .tc main_v6) := by keep_r0; rfl
theorem k4_v30 : W4 m ρ c (Proc.devRef .tc main_v30) = W3 m ρ c (Proc.devRef .tc main_v30) := by keep_r0; rfl
theorem k6_v3 : W6 m ρ c (Proc.devRef .tc main_v3) = W3 m ρ c (Proc.devRef .tc main_v3) := by
  keep_r1; keep_host hostOps1; exact k4_v3 m ρ c
theorem k6_v6 : W6 m ρ c (Proc.devRef .tc main_v6) = W3 m ρ c (Proc.devRef .tc main_v6) := by
  keep_r1; keep_host hostOps1; exact k4_v6 m ρ c
theorem k6_v30 : W6 m ρ c (Proc.devRef .tc main_v30) = W3 m ρ c (Proc.devRef .tc main_v30) := by
  keep_r1; keep_host hostOps1; exact k4_v30 m ρ c
theorem k8_v3 : W8 m ρ c (Proc.devRef .tc main_v3) = W3 m ρ c (Proc.devRef .tc main_v3) := by
  keep_r2; keep_host hostOps2; exact k6_v3 m ρ c
theorem k8_v6 : W8 m ρ c (Proc.devRef .tc main_v6) = W3 m ρ c (Proc.devRef .tc main_v6) := by
  keep_r2; keep_host hostOps2; exact k6_v6 m ρ c
theorem k8_v30 : W8 m ρ c (Proc.devRef .tc main_v30) = W3 m ρ c (Proc.devRef .tc main_v30) := by
  keep_r2; keep_host hostOps2; exact k6_v30 m ρ c

-- the first bias row up to the second region, the stacked bias rows up to the stretches that slice them
theorem k5_v31 : W5 m ρ c (Proc.devRef .tc main_v31) = W3 m ρ c (Proc.devRef .tc main_v31) := by
  keep_host hostOps1; keep_r0; rfl
theorem k6_v32 : W6 m ρ c (Proc.devRef .tc main_v32) = W3 m ρ c (Proc.devRef .tc main_v32) := by
  keep_r1; keep_host hostOps1; keep_r0; rfl
theorem k8_v32 : W8 m ρ c (Proc.devRef .tc main_v32) = W3 m ρ c (Proc.devRef .tc main_v32) := by
  keep_r2; keep_host hostOps2; exact k6_v32 m ρ c

-- the pooling region's two output arrays across the last stretch
theorem k11_v87_0 : W11 m ρ c (Proc.devRef .tc main_v87_0) = W10 m ρ c (Proc.devRef .tc main_v87_0) := by
  keep_host hostOps4; rfl
theorem k11_v87_1 : W11 m ρ c (Proc.devRef .tc main_v87_1) = W10 m ρ c (Proc.devRef .tc main_v87_1) := by
  keep_host hostOps4; rfl

/-! ## Before the first region -/

theorem t3_v3 : W3 m ρ c (Proc.devRef .tc main_v3) = val_main_v3 (F := Ideal) (at0 m c main_arg1) := Host.pre_v3 (W0 m ρ c)
theorem t3_v6 : W3 m ρ c (Proc.devRef .tc main_v6) = val_main_v6 (F := Ideal) (at0 m c main_arg1) := Host.pre_v6 (W0 m ρ c)
theorem t3_v30 : W3 m ρ c (Proc.devRef .tc main_v30) = val_main_v31 (F := Ideal) (at0 m c main_arg1) := Host.pre_v30 (W0 m ρ c)
theorem t3_v31 (k : Fin 128) : W3 m ρ c (Proc.devRef .tc main_v31) (ix2 (0 : Fin 1) k) = at0 m c main_arg4 (ix1 k) :=
  Host.pre_v31 (W0 m ρ c) k
theorem t3_v32 : W3 m ρ c (Proc.devRef .tc main_v32) = shapeCast S2x1x128 (at0 m c main_arg6) shapeCasts_S2x128_S2x1x128 :=
  Host.pre_v32 (W0 m ρ c)

/-! ## The first region: the projection of the node features -/

theorem t4_v33 : W4 m ρ c (Proc.devRef .tc main_v33)
    = val_main_v30 (F := Ideal) (at0 m c main_arg0) (at0 m c main_arg3) := by
  refine (W4_arr m ρ c 2).trans ((Region0.arr (V3 m ρ) c).trans ?_)
  have e0 : V3 m ρ c main_arg0 = at0 m c main_arg0 := k3_arg0 m ρ c
  have e3 : V3 m ρ c main_arg3 = at0 m c main_arg3 := k3_arg3 m ρ c
  rw [e0, e3]
  exact (Cert.RefSide.v30_eq _ _).symm

/-! ## The first aggregation -/

theorem t5_v45 : W5 m ρ c (Proc.devRef .tc main_v45)
    = val_main_v43 (F := Ideal) (at0 m c main_arg0) (at0 m c main_arg1) (at0 m c main_arg3) := by
  refine (Host.h1_v45 (W4 m ρ c)).trans ?_
  rw [k4_v3 m ρ c, k4_v6 m ρ c, k4_v30 m ρ c, t3_v3 m ρ c, t3_v6 m ρ c, t3_v30 m ρ c, t4_v33 m ρ c]
  exact (Cert.RefSide.v43_eq _ _ _).symm

theorem t5_v47 : W5 m ρ c (Proc.devRef .tc main_v47) = Cert.Spec.w0 (F := Ideal) (at0 m c main_arg5) := by
  refine (Host.h1_v47 (W4 m ρ c)).trans ?_
  rw [k4_arg5 m ρ c]

theorem t5_v31 (k : Fin 128) : W5 m ρ c (Proc.devRef .tc main_v31) (ix2 (0 : Fin 1) k) = at0 m c main_arg4 (ix1 k) := by
  rw [k5_v31 m ρ c]; exact t3_v31 m ρ c k

/-! ## The second region: the first layer -/

theorem t6_v48 : W6 m ρ c (Proc.devRef .tc main_v48)
    = val_main_v52 (F := Ideal) (at0 m c main_arg0) (at0 m c main_arg1) (at0 m c main_arg3) (at0 m c main_arg4)
        (at0 m c main_arg5) := by
  refine (W6_arr m ρ c 3).trans ((Region1.arr (V5 m ρ) c (at0 m c main_arg4) (fun k => t5_v31 m ρ c k)).trans ?_)
  have e1 : V5 m ρ c main_v45
      = val_main_v43 (F := Ideal) (at0 m c main_arg0) (at0 m c main_arg1) (at0 m c main_arg3) := t5_v45 m ρ c
  have e2 : V5 m ρ c main_v47 = Cert.Spec.w0 (F := Ideal) (at0 m c main_arg5) := t5_v47 m ρ c
  rw [e1, e2]
  exact (Cert.RefSide.v52_eq _ _ _ _ _).symm

/-! ## The second aggregation -/

theorem t7_v62 : W7 m ρ c (Proc.devRef .tc main_v62)
    = val_main_v65 (F := Ideal) (at0 m c main_arg0) (at0 m c main_arg1) (at0 m c main_arg3) (at0 m c main_arg4)
        (at0 m c main_arg5) := by
  refine (Host.h2_v62 (W6 m ρ c)).trans ?_
  rw [k6_v3 m ρ c, k6_v6 m ρ c, k6_v30 m ρ c, t3_v3 m ρ c, t3_v6 m ρ c, t3_v30 m ρ c, t6_v48 m ρ c]
  exact (Cert.RefSide.v65_eq _ _ _ _ _).symm

theorem t7_v64 : W7 m ρ c (Proc.devRef .tc main_v64) = Cert.Spec.w1 (F := Ideal) (at0 m c main_arg5) := by
  refine (Host.h2_v64 (W6 m ρ c)).trans ?_
  rw [k6_arg5 m ρ c]

theorem t7_v50 (k : Fin 128) :
    W7 m ρ c (Proc.devRef .tc main_v50) (ix2 (0 : Fin 1) k) = Cert.Spec.b0 (F := Ideal) (at0 m c main_arg6) (ix1 k) :=
  Host.h2_v50 (W6 m ρ c) (at0 m c main_arg6) ((k6_v32 m ρ c).trans (t3_v32 m ρ c)) k

/-! ## The third region: the second layer -/

theorem t8_v65 : W8 m ρ c (Proc.devRef .tc main_v65)
    = val_main_v74 (F := Ideal) (at0 m c main_arg0) (at0 m c main_arg1) (at0 m c main_arg3) (at0 m c main_arg4)
        (at0 m c main_arg5) (at0 m c main_arg6) := by
  refine (W8_arr m ρ c 3).trans ((Region2.arr (V7 m ρ) c (Cert.Spec.b0 (F := Ideal) (at0 m c main_arg6))
    (fun k => t7_v50 m ρ c k)).trans ?_)
  have e1 : V7 m ρ c main_v62
      = val_main_v65 (F := Ideal) (at0 m c main_arg0) (at0 m c main_arg1) (at0 m c main_arg3) (at0 m c main_arg4)
          (at0 m c main_arg5) := t7_v62 m ρ c
  have e2 : V7 m ρ c main_v64 = Cert.Spec.w1 (F := Ideal) (at0 m c main_arg5) := t7_v64 m ρ c
  rw [e1, e2]
  exact (Cert.RefSide.v74_eq _ _ _ _ _ _).symm

/-! ## The third aggregation and the membership array -/

theorem t9_v79 : W9 m ρ c (Proc.devRef .tc main_v79)
    = val_main_v87 (F := Ideal) (at0 m c main_arg0) (at0 m c main_arg1) (at0 m c main_arg3) (at0 m c main_arg4)
        (at0 m c main_arg5) (at0 m c main_arg6) := by
  refine (Host.h3_v79 (W8 m ρ c)).trans ?_
  rw [k8_v3 m ρ c, k8_v6 m ρ c, k8_v30 m ρ c, t3_v3 m ρ c, t3_v6 m ρ c, t3_v30 m ρ c, t8_v65 m ρ c]
  exact (Cert.RefSide.v87_eq _ _ _ _ _ _).symm

theorem t9_v67 (k : Fin 128) :
    W9 m ρ c (Proc.devRef .tc main_v67) (ix2 (0 : Fin 1) k) = Cert.Spec.b1 (F := Ideal) (at0 m c main_arg6) (ix1 k) :=
  Host.h3_v67 (W8 m ρ c) (at0 m c main_arg6) ((k8_v32 m ρ c).trans (t3_v32 m ρ c)) k

theorem t9_v86 (n : Fin 100000) (g : Fin 128) : W9 m ρ c (Proc.devRef .tc main_v86) (ix2 n g)
    = if at0 m c main_arg2 (ix1 n) = BitVec.ofNat 32 g.val then (1 : EReal) else 0 := by
  refine (Host.h3_v86 (W8 m ρ c) n g).trans ?_
  rw [k8_arg2 m ρ c]

/-! ## The pooling region -/

theorem t10_v87_0 : W10 m ρ c (Proc.devRef .tc main_v87_0)
    = val_main_v94 (F := Ideal) (at0 m c main_arg0) (at0 m c main_arg1) (at0 m c main_arg2) (at0 m c main_arg3)
        (at0 m c main_arg4) (at0 m c main_arg5) (at0 m c main_arg6) := by
  refine (W10_arr m ρ c 3).trans ((Region3.arr_sum (V9 m ρ) c (at0 m c main_arg2)
    (Cert.Spec.b1 (F := Ideal) (at0 m c main_arg6)) (fun k => t9_v67 m ρ c k) (fun n g => t9_v86 m ρ c n g)).trans ?_)
  have e1 : V9 m ρ c main_v79
      = val_main_v87 (F := Ideal) (at0 m c main_arg0) (at0 m c main_arg1) (at0 m c main_arg3) (at0 m c main_arg4)
          (at0 m c main_arg5) (at0 m c main_arg6) := t9_v79 m ρ c
  rw [e1]
  exact (Cert.RefSide.v94_eq _ _ _ _ _ _ _).symm

theorem t10_v87_1 (g : Fin 128) : W10 m ρ c (Proc.devRef .tc main_v87_1) (ix2 (0 : Fin 1) g)
    = val_main_v98 (F := Ideal) (at0 m c main_arg2) (ix1 g) := by
  refine (congrFun (W10_arr m ρ c 4) _).trans
    ((Region3.arr_cnt (V9 m ρ) c (at0 m c main_arg2) (fun n g => t9_v86 m ρ c n g) g).trans ?_)
  exact congrFun (Cert.RefSide.v98_eq _).symm _

/-! ## The classifier's bias rows -/

theorem t11_v88 (k : Fin 128) : W11 m ρ c (Proc.devRef .tc main_v88) (ix2 (0 : Fin 1) k) = at0 m c main_arg8 (ix1 k) := by
  refine (Host.h4_v88 (W10 m ρ c) k).trans ?_
  rw [k10_arg8 m ρ c]

theorem t11_v89 (k : Fin 10) : W11 m ρ c (Proc.devRef .tc main_v89) (ix2 (0 : Fin 1) k) = at0 m c main_arg10 (ix1 k) := by
  refine (Host.h4_v89 (W10 m ρ c) k).trans ?_
  rw [k10_arg10 m ρ c]

theorem t11_v87_1 (g : Fin 128) : W11 m ρ c (Proc.devRef .tc main_v87_1) (ix2 (0 : Fin 1) g)
    = val_main_v98 (F := Ideal) (at0 m c main_arg2) (ix1 g) := by
  rw [k11_v87_1 m ρ c]; exact t10_v87_1 m ρ c g

/-! ## The last region: the result -/

/-- The kernel's result array is the reference's result term of the argument arrays. -/
theorem result : W12 m ρ c (Proc.devRef .tc main_v90)
    = val_main_v113 (F := Ideal) (at0 m c main_arg0) (at0 m c main_arg1) (at0 m c main_arg2) (at0 m c main_arg3)
        (at0 m c main_arg4) (at0 m c main_arg5) (at0 m c main_arg6) (at0 m c main_arg7) (at0 m c main_arg8)
        (at0 m c main_arg9) (at0 m c main_arg10) := by
  refine (W12_arr m ρ c 6).trans ((Region4.arr (V11 m ρ) c (val_main_v98 (F := Ideal) (at0 m c main_arg2))
    (at0 m c main_arg8) (at0 m c main_arg10)
    (fun g => t11_v87_1 m ρ c g) (fun k => t11_v88 m ρ c k) (fun k => t11_v89 m ρ c k)).trans ?_)
  have e1 : V11 m ρ c main_v87_0
      = val_main_v94 (F := Ideal) (at0 m c main_arg0) (at0 m c main_arg1) (at0 m c main_arg2) (at0 m c main_arg3)
          (at0 m c main_arg4) (at0 m c main_arg5) (at0 m c main_arg6) := (k11_v87_0 m ρ c).trans (t10_v87_0 m ρ c)
  have e7 : V11 m ρ c main_arg7 = at0 m c main_arg7 := k11_arg7 m ρ c
  have e9 : V11 m ρ c main_arg9 = at0 m c main_arg9 := k11_arg9 m ρ c
  rw [e1, e7, e9]
  exact (Cert.RefSide.v113_eq _ _ _ _ _ _ _ _ _ _ _).symm

end Cert.KernelIdeal.Chain

end
-- ==== Proof.lean ====
/-
  A graph-convolution classifier over a batch of graphs: three layers, each a dense projection of every node's
  features followed by an aggregation along the edges (self loops added, each edge weighted by the inverse square roots
  of its end points' degrees), a bias and a clamp at zero; the mean of each graph's node features; two dense layers; the
  logarithm of the softmax of each graph's ten scores.

  The kernel runs the dense parts as five kernel regions (the first projection; bias, clamp and projection fused, twice;
  bias and clamp fused with the pooling, written as the product of a node-by-graph membership array with the features and
  accumulated over ten blocks of nodes; the classifier) and leaves the aggregations to the same host scatters and gathers
  the reference uses. Over the extended reals a change of float format is the identity and a sum may be regrouped, so:
    • each projection region's array is the host's matrix product of the whole arrays (block by block, each entry the
      same sum over the 128 features);
    • the product with the membership array, summed over all nodes, is the sum over the nodes whose word names the graph
      (one times a value is the value, zero times a value is zero), which is what the host's scatter leaves; the column
      sums of the membership array are the graphs' node counts;
    • the classifier region computes, entry by entry, what the host's operations compute.
  The aggregations between the regions are the reference's own operations applied to equal arrays. So the kernel's result
  array is the reference's result term of the same arguments (Proof/KChain.lean), and no finiteness of the inputs is used.
  The three frames are the generated ones (the reference's from its run), and the kernel's idealization rewrote nothing.
-/
import proofs.«427432_j47828755808670_1_alg».proof.Defs
import proofs.«427432_j47828755808670_1_alg».proof.Proof.Gen.Kernel
import proofs.«427432_j47828755808670_1_alg».proof.Proof.Gen.Kernel.Skeleton
import proofs.«427432_j47828755808670_1_alg».proof.Proof.Gen.Kernel.Launch
import proofs.«427432_j47828755808670_1_alg».proof.Proof.Gen.Kernel.Points
import proofs.«427432_j47828755808670_1_alg».proof.Proof.Gen.Kernel.Frame
import proofs.«427432_j47828755808670_1_alg».proof.Proof.Gen.KernelIdeal
import proofs.«427432_j47828755808670_1_alg».proof.Proof.Gen.KernelIdeal.Skeleton
import proofs.«427432_j47828755808670_1_alg».proof.Proof.Gen.KernelIdeal.Launch
import proofs.«427432_j47828755808670_1_alg».proof.Proof.Gen.KernelIdeal.Points
import proofs.«427432_j47828755808670_1_alg».proof.Proof.Gen.KernelIdeal.Frame
import proofs.«427432_j47828755808670_1_alg».proof.Proof.Gen.ReferenceIdeal
import proofs.«427432_j47828755808670_1_alg».proof.Proof.Gen.Pre_finite_inputs
import proofs.«427432_j47828755808670_1_alg».proof.Proof.RefRun
import proofs.«427432_j47828755808670_1_alg».proof.Proof.RefRead
import proofs.«427432_j47828755808670_1_alg».proof.Proof.KRun
import proofs.«427432_j47828755808670_1_alg».proof.Proof.KChain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The two idealized programs, from memories that agree on the arguments, end with the same result array: the kernel's
    at the last boundary's contents, which is the reference's result term of the arguments. -/
theorem algebraic : Cert.algebraic_KernelIdeal_ReferenceIdeal := by
  intro m ρ m' ρ' _ hagree
  refine ⟨fun c => Cert.KernelIdeal.Gen.W12 m ρ c (Proc.devRef .tc Cert.KernelIdeal.main_v90),
    Cert.KernelIdeal.GenRun.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v113_eq, h0, h1, h2, h3, h4, h5, h6, h7, h8, h9, h10]
  exact (Cert.KernelIdeal.Chain.result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
